-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩
abbrev S4096 : Shape := ⟨1, ![4096]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : FVec F S4096x4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : IVec S4096x4096 32 := iotaInDim S4096x4096 32 0
  let main_v20 : IVec S4096x4096 32 := iotaInDim S4096x4096 32 1
  let main_c_6 : IVec S_ 32 := constantI S_ 32 0#32
  let main_v21 : IVec S4096x4096 32 := broadcastInDim S4096x4096 ![] bcast_S_S4096x4096 main_c_6
  let main_v22 : IVec S4096x4096 32 := addi main_v19 main_v21
  let main_v23 : IVec S4096x4096 1 := cmpi .eq main_v22 main_v20
  let main_v24 : FVec F S4096x4096 .f32 := uitofp .f32 main_v23
  let main_v25 : FVec F S4096x4096 .f32 := addf main_arg1 main_v24
  let main_cst_7 : FVec F S_ .f32 := constant S_ .f32 0x00000000#32
  let main_v26 : FVec F S4096 .f32 := (fun x v => Host.reduceAdd x v reducesTo_S4096x4096_S4096_d1 h_S_) main_v25 main_cst_7
  let main_cst_8 : FVec F S_ .f32 := constant S_ .f32 0x00000000#32
  let main_v27 : FVec F S4096 .f32 := broadcastInDim S4096 ![] bcast_S_S4096 main_cst_8
  let main_v28 : IVec S4096 1 := cmpf .ogt main_v26 main_v27
  let main_c_9 : IVec S_ 1 := constantI S_ 1 1#1
  let main_v29 : IVec S_ 1 := (fun x v => Host.reduce IntOp.andi x v reducesTo_S4096_S_d0 h_S_) main_v28 main_c_9
  let main_v30 : IVec S_ 1 := andi main_v18 main_v29
  main_v30

def fn {F : FTy → Type} [FloatOps F] (main_arg0 : FVec F S4096x512 .f32) (main_arg1 : FVec F S4096x4096 .f32) (main_arg2 : FVec F S512x512 .f32) (main_arg3 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S4096x1 : Shape := ⟨2, ![4096, 1]⟩
abbrev S512x4096 : Shape := ⟨2, ![512, 4096]⟩
abbrev S512x1 : Shape := ⟨2, ![512, 1]⟩
abbrev S1x512 : Shape := ⟨2, ![1, 512]⟩

abbrev nBuf : Space → Nat
  | .hbm => 8
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S4096x1, .f32⟩
  | .hbm, ⟨5, _⟩ => ⟨S512x512, .f32⟩
  | .hbm, ⟨6, _⟩ => ⟨S1x512, .f32⟩
  | .hbm, ⟨7, _⟩ => ⟨S4096x512, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1, .f32⟩
  | .local _ .vmem, ⟨9, _⟩ => ⟨S512x1, .f32⟩
  | .local _ .vmem, ⟨10, _⟩ => ⟨S512x512, .f32⟩
  | .local _ .vmem, ⟨11, _⟩ => ⟨S512x512, .f32⟩
  | .local _ .vmem, ⟨12, _⟩ => ⟨S512x1, .f32⟩
  | .local _ .vmem, ⟨13, _⟩ => ⟨S512x1, .f32⟩
  | .local _ .vmem, ⟨14, _⟩ => ⟨S512x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  transposes_S512x512_S512x512_1_0 : S512x512.Transposes [1, 0] S512x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x1_S512x1 : S512x1.ShapeCasts S512x1
  broadcasts_S512x1_S512x512 : S512x1.Broadcasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .f32 = 32 ∨ (Rect.block (s := S4096x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x512.size a
  hwx1_7 : ∀ i : grid1.Coords, EltTy.bits .f32 = 32 ∨ (Rect.block (s := S4096x512) S512x512.size (cc1_transform_7 i) (hinb1_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x512, .f32⟩
  | .hbm, ⟨25, _⟩ => ⟨S512x512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.K_Region0.lean ====
/-
  The degree kernel as a pipeline region, at any float values and at any contents `V` of the core's buffers when the
  region is entered. At grid point t the region stages rows 512·t … 512·t+511 of the adjacency array (all 4096 columns)
  and the body stores, into the staged [512, 1] block of the degree array, one value per row: one over the root of the
  row's sum plus one. The body's only store covers its whole block, so the block after the body is that payload of the
  staged rows; nothing is carried between points and nothing is owed to another core.
-/
import proofs.«127069_j5488968204378_1_alg».proof.Proof.Gen.Kernel.Launch
import proofs.«127069_j5488968204378_1_alg».proof.Proof.Gen.Kernel.Skeleton
import proofs.«127069_j5488968204378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [512, 4096] block and the whole [512, 1] block as rectangles. -/
abbrev rA0 : Rect S512x4096 := Rect.unit (s := S512x4096) ![0, 0] S512x4096.size inb_S512x4096_S512x4096_0_0
abbrev rD0 : Rect S512x1 := Rect.unit (s := S512x1) ![0, 0] S512x1.size inb_S512x1_S512x1_0_0

/-- The degree block after the body, from the staged adjacency rows: the one store's payload. -/
def out0_1 (x0 : Vec F S512x4096 .f32) : Vec F S512x1 .f32 :=
  View.canon [⟨rD0, k0_pay1 (View.ld x0 rA0)⟩]

/-- The store covers the block. -/
theorem cover0_1 (p0 : Vec F S512x1 .f32) (y : S512x1.Idx) :
    ∃ pc ∈ ([⟨rD0, p0⟩] : List (View.Piece (Elt F) S512x1 .f32)), y ∈ pc.1.set :=
  View.cover_of_tiled [⟨rD0, p0⟩] S512x1.size (by rfl) y

set_option maxHeartbeats 1000000 in
/-- The body on whole staging memrefs: the adjacency block kept, the degree block left at `out0_1` of it. -/
theorem sound_kernel0 (c : Dev nD) (E : Set ℕ) (i : grid0.Coords) (arg1 : Memref sig .tc .vmem S512x4096 .f32) (harg1 : arg1.IsWhole)
    (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree region on core `c`: the arrays as entered; after the body the adjacency block in place
    and the degree block at `out0_1` of it; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K_R1Shared.lean ====
/-
  The message-passing kernel as a pipeline region: what its three control cases share. The grid is 8 row blocks by 8
  column blocks, point t = 8·i + k. At every point the body adds, into a [512, 512] scratch accumulator, the product of
  the staged adjacency block (rows of block i, columns of block k) with the staged feature rows of block k scaled by
  their degrees; at k = 0 it first zeroes the accumulator; at k = 7 it then forms the hidden rows from the accumulator,
  the degrees and features of row block i, multiplies by the transposed weights, adds the bias and stores the result
  block. So there are three cases of the two conditionals: k = 0 (reset and add), 0 < k < 7 (add), k = 7 (add and
  finish). The result window is idle except at k = 7, where it is also written back.
-/
import proofs.«127069_j5488968204378_1_alg».proof.Proof.Gen.Kernel.Launch
import proofs.«127069_j5488968204378_1_alg».proof.Proof.Gen.Kernel.Skeleton
import proofs.«127069_j5488968204378_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first conditional's condition (column block 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (column block 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off column block 7 the result window is idle and not written back; at column block 7 it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The staging memrefs at a point, the scratch, and the invariant's pieces -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
/-- The scratch accumulator: a whole scoped buffer of the kernel's own. -/
abbrev scM1 : Memref sig .tc .vmem S512x512 .f32 := Memref.whole cc1_scratch0
/-- Views through which an output block's and the scratch's contents are stated. -/
abbrev VO1 : View sig .tc .vmem S512x512 .f32 := (Memref.whole cc1_stg7_0 : Memref sig .tc .vmem S512x512 .f32).view
abbrev VS1 : View sig .tc .vmem S512x512 .f32 := scM1.view

/-- The scoped buffers the region never names (the degree region's staging buffers), each whole at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

end Cert.Kernel.Gen

end
-- ==== Proof.K_R1RunA.lean ====
/-
  The message-passing body at a point of column block 0: the accumulator is zeroed, then the block product is added.
  On whole staging memrefs with the seven inputs at their contents, the result block at any contents (handed back
  untouched) and the scratch at anything, the body runs to its end leaving the inputs as they were and the scratch with
  the pieces the run finds written.
-/
import proofs.«127069_j5488968204378_1_alg».proof.Proof.K_R1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32) :
    { LS : List (View.Piece (Elt F) S512x512 .f32) //
      ∀ (xi9 : Vec F S512x512 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, fun xi9 E K => ?run⟩
  case run =>
    simp only [cc1__gcn_kernel_eq_skeleton]; unfold cc1__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Gen

end
-- ==== Proof.K_R1RunB.lean ====
/-
  The message-passing body at a point of a middle column block (neither 0 nor 7): the block product is added to the
  accumulator the point before left. Inputs at their contents, the result block at any contents handed back untouched,
  the scratch at the contents carried in; the scratch ends with the pieces the run finds written.
-/
import proofs.«127069_j5488968204378_1_alg».proof.Proof.K_R1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32) (xs : Vec F S512x512 .f32) :
    { LS : List (View.Piece (Elt F) S512x512 .f32) //
      ∀ (xi9 : Vec F S512x512 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, fun xi9 E K => ?run⟩
  case run =>
    simp only [cc1__gcn_kernel_eq_skeleton]; unfold cc1__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Gen

end
-- ==== Proof.K_R1RunC.lean ====
/-
  The message-passing body at a point of column block 7: the block product is added to the accumulator carried in, and
  the result block is stored from the finished accumulator. Inputs at their contents, the result block at anything, the
  scratch at the contents carried in; the result block and the scratch end with the pieces the run finds written.
-/
import proofs.«127069_j5488968204378_1_alg».proof.Proof.K_R1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32) (xs : Vec F S512x512 .f32) :
    Σ' (L9 : List (View.Piece (Elt F) S512x512 .f32)), { LS : List (View.Piece (Elt F) S512x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc1__gcn_kernel_eq_skeleton]; unfold cc1__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.Kernel.Gen

end
-- ==== Proof.K_Region1.lean ====
/-
  The message-passing region's proof data and body obligation, at any float values and any entry contents `V`.
  After point t the scratch holds the accumulator: at column block 0 the block product added to zero, otherwise added
  to what the point before left; at column block 7 the result block holds the finished rows. The invariant between
  points carries the scratch at that accumulator (before the first point: at anything). The feature array and the
  degree array are each read through two windows, so each window on them holds one half share of its array.
-/
import proofs.«127069_j5488968204378_1_alg».proof.Proof.K_R1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves, read back from the pieces its run found -/

section Cases
variable (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32)

/-- Column block 0: the scratch after the body. -/
def sout1_A (hc0 : cond1_0 i) (hc1 : ¬cond1_1 i) : Vec F S512x512 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x2 x3 x4 x5 x6 x7 x8).1)
theorem scover1_A (hc0 : cond1_0 i) (hc1 : ¬cond1_1 i) (y : S512x512.Idx) :
    ∃ pc ∈ (kernelRun1_A c i arg2 harg2 arg3 harg3 arg4 harg4 arg5 harg5 arg6 harg6 arg7 harg7 arg8 harg8 arg9 harg9 arg10 harg10 hc0 hc1 x2 x3 x4 x5 x6 x7 x8).1, y ∈ pc.1.set :=
  View.cover_of_tiledL (kernelRun1_A c i arg2 harg2 arg3 harg3 arg4 harg4 arg5 harg5 arg6 harg6 arg7 harg7 arg8 harg8 arg9 harg9 arg10 harg10 hc0 hc1 x2 x3 x4 x5 x6 x7 x8).1 S512x512.size (by sl_kernel_rfl) y

/-- A middle column block: the scratch after the body, over what the point before left (`xs`). -/
def sout1_B (hc0 : ¬cond1_0 i) (hc1 : ¬cond1_1 i) (xs : Vec F S512x512 .f32) : Vec F S512x512 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x2 x3 x4 x5 x6 x7 x8 xs).1)
theorem scover1_B (hc0 : ¬cond1_0 i) (hc1 : ¬cond1_1 i) (xs : Vec F S512x512 .f32) (y : S512x512.Idx) :
    ∃ pc ∈ (kernelRun1_B c i arg2 harg2 arg3 harg3 arg4 harg4 arg5 harg5 arg6 harg6 arg7 harg7 arg8 harg8 arg9 harg9 arg10 harg10 hc0 hc1 x2 x3 x4 x5 x6 x7 x8 xs).1, y ∈ pc.1.set :=
  View.cover_of_tiledL (kernelRun1_B c i arg2 harg2 arg3 harg3 arg4 harg4 arg5 harg5 arg6 harg6 arg7 harg7 arg8 harg8 arg9 harg9 arg10 harg10 hc0 hc1 x2 x3 x4 x5 x6 x7 x8 xs).1 S512x512.size (by sl_kernel_rfl) y

/-- Column block 7: the scratch and the result block after the body. -/
def sout1_C (hc0 : ¬cond1_0 i) (hc1 : cond1_1 i) (xs : Vec F S512x512 .f32) : Vec F S512x512 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x2 x3 x4 x5 x6 x7 x8 xs).2.1)
theorem scover1_C (hc0 : ¬cond1_0 i) (hc1 : cond1_1 i) (xs : Vec F S512x512 .f32) (y : S512x512.Idx) :
    ∃ pc ∈ (kernelRun1_C c i arg2 harg2 arg3 harg3 arg4 harg4 arg5 harg5 arg6 harg6 arg7 harg7 arg8 harg8 arg9 harg9 arg10 harg10 hc0 hc1 x2 x3 x4 x5 x6 x7 x8 xs).2.1, y ∈ pc.1.set :=
  View.cover_of_tiledL (kernelRun1_C c i arg2 harg2 arg3 harg3 arg4 harg4 arg5 harg5 arg6 harg6 arg7 harg7 arg8 harg8 arg9 harg9 arg10 harg10 hc0 hc1 x2 x3 x4 x5 x6 x7 x8 xs).2.1 S512x512.size (by sl_kernel_rfl) y
def out1_C (hc0 : ¬cond1_0 i) (hc1 : cond1_1 i) (xs : Vec F S512x512 .f32) : Vec F S512x512 .f32 :=
  VO1.read (Elt F) (VO1.writes (Elt F) VO1.junk (kernelRun1_C c i arg2 harg2 arg3 harg3 arg4 harg4 arg5 harg5 arg6 harg6 arg7 harg7 arg8 harg8 arg9 harg9 arg10 harg10 hc0 hc1 x2 x3 x4 x5 x6 x7 x8 xs).1)
theorem cover1_C (hc0 : ¬cond1_0 i) (hc1 : cond1_1 i) (xs : Vec F S512x512 .f32) (y : S512x512.Idx) :
    ∃ pc ∈ (kernelRun1_C c i arg2 harg2 arg3 harg3 arg4 harg4 arg5 harg5 arg6 harg6 arg7 harg7 arg8 harg8 arg9 harg9 arg10 harg10 hc0 hc1 x2 x3 x4 x5 x6 x7 x8 xs).1, y ∈ pc.1.set :=
  View.cover_of_tiledL (kernelRun1_C c i arg2 harg2 arg3 harg3 arg4 harg4 arg5 harg5 arg6 harg6 arg7 harg7 arg8 harg8 arg9 harg9 arg10 harg10 hc0 hc1 x2 x3 x4 x5 x6 x7 x8 xs).1 S512x512.size (by sl_kernel_rfl) y

end Cases

/-! ## What the result block and the scratch hold after each point -/

/-- After the body at position `n`: (the result block, the scratch). Off column block 7 the result block is not
    stored; its component there is a placeholder nothing reads (the scratch's value). -/
def outsAt1 (c : Dev nD) : (n : ℕ) → n < cfg1.N → Vec F S512x512 .f32 × Vec F S512x512 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) ((hcond1_0 ⟨0, hn⟩).mpr (Nat.zero_mod _)) (fun h => (fun h => by (try dsimp only at h); omega) ((hcond1_1 ⟨0, hn⟩).mp h)), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) ((hcond1_0 ⟨0, hn⟩).mpr (Nat.zero_mod _)) (fun h => (fun h => by (try dsimp only at h); omega) ((hcond1_1 ⟨0, hn⟩).mp h)))
  | n + 1, hn =>
    if h0 : (n + 1) % 8 = 0 then
      if h1 : (n + 1) % 8 = 7 then
        False.elim (by omega)
      else
        (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) ((hcond1_0 ⟨n + 1, hn⟩).mpr h0) (fun h => h1 ((hcond1_1 ⟨n + 1, hn⟩).mp h)), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) ((hcond1_0 ⟨n + 1, hn⟩).mpr h0) (fun h => h1 ((hcond1_1 ⟨n + 1, hn⟩).mp h)))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) ((hcond1_1 ⟨n + 1, hn⟩).mpr h1) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) ((hcond1_1 ⟨n + 1, hn⟩).mpr h1) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) (fun h => h1 ((hcond1_1 ⟨n + 1, hn⟩).mp h)) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 8 = 0) (h1 : ¬t.val % 8 = 7) :
    outsAt1 V c t.val t.isLt = (sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h)), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that are no staging buffer of this region, the scratch among them at `S`. -/
def Scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- The class invariant with the scratch as a memref owned at some contents. -/
theorem PhiA1_eq (c : Dev nD) :
    (Pipeline.ΦA spec1 c : sProp 𝕄)
      = iprop(Scoped1 c (iprop(∃ d, owns (c : Thread nD τ) scM1 fullShare d)) ∗ (∃ r, prngReg c r)) := by
  unfold Pipeline.ΦA Scoped1; rw [scopedRest1_eq]; simp only [scM1, owns_whole]; try rfl

/-- Before position `n`: before the first point the class invariant; afterwards the scratch at what the point before
    left, the generator register at some state. -/
def PhiS1 (c : Dev nD) : (n : ℕ) → n ≤ cfg1.N → sProp 𝕄
  | 0, _ => Pipeline.ΦA spec1 c
  | n + 1, hn => iprop(Scoped1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Scoped1 c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(Scoped1 c (owns (c : Thread nD τ) scM1 fullShare ((outsAt1 V c (n - 1) (by omega)).2)) ∗ (∃ r, prngReg c r)) := by
  cases n with
  | zero => exact absurd rfl hz
  | succ n => rfl

/-! ## The proof data -/

/-- The proof data of the message-passing region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · by_cases h1 : t.val % 8 = 7
    · exfalso; omega
    · rw [Dat.leavesExact_idle (dat1 V c) 7 t (idleAt1_7 t (fun h => h1 ((hcond1_1 t).mp h))) (noFlush1_7 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold Scoped1
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        unfold Scoped1
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun h => h0 (by rw [h])
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_C sout1_C; (try dsimp only)
      rw [PhiS1_castSucc V c t, PhiS1_pos V c _ _ hz]
      unfold Scoped1
      iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (scover1_C c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C c _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold sout1_B; (try dsimp only)
      rw [PhiS1_castSucc V c t, PhiS1_pos V c _ _ hz]
      unfold Scoped1
      iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (scover1_B c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation of the message-passing region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  unfold Scoped1
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

end Region1

end Cert.Kernel.Gen

end
-- ==== Proof.K_R1Arrays.lean ====
/-
  The message-passing region reads the feature array through two windows (rows of the column block; rows of the row
  block) and the degree array likewise, so its windows' arrays are six distinct buffers behind eight windows. Holding
  each distinct buffer whole at the full share is the same as holding every window's array at its window's share, when
  the two windows on one buffer hold the two halves of the full share and read the same contents.
-/
import proofs.«127069_j5488968204378_1_alg».proof.Proof.Gen.Kernel.Launch
import Idealize.ShloMosaic.Lib.Pipeline.RegionsLoop
import Idealize.ShloMosaic.Lib.Pipeline.FrameBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the eight windows: the two windows on the feature array and the two on the degree array hold the
    left and right halves; every other input window the full share. -/
def q1 : Fin cfg1.W → PosShare TreeShare := fun w => match w with
  | ⟨0, _⟩ => fullShare
  | ⟨1, _⟩ => fullShare.left
  | ⟨2, _⟩ => fullShare.left
  | ⟨3, _⟩ => fullShare.right
  | ⟨4, _⟩ => fullShare.right
  | ⟨5, _⟩ => fullShare
  | ⟨6, _⟩ => fullShare
  | ⟨7, _⟩ => fullShare

/-- The six distinct buffers behind the eight windows, one by one. -/
theorem arrBufs1_eq {c : Dev nD} (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_arg0) ↦{fullShare} V main_arg0)
          ∗ (((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  unfold Pipeline.arrBufs
  exact bigSep_eq_bigSepL_of_eq [main_arg1, main_arg0, main_v0, main_v1, main_v2, main_v3] (by decide) (by decide) _

/-- The eight windows' arrays at their shares, one by one, at contents read off `V`. -/
theorem arrays1_eq {c : Dev nD} (dat : Dat τ (Elt F) Unit ℕ (UR sig nD τ) ℕ cfg1 c) (hq : dat.q = q1)
    (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (dat.arrays Fw : sProp 𝕄)
      = iprop((((c : Thread nD τ).loc main_arg1) ↦{fullShare} V main_arg1) ∗ (((c : Thread nD τ).loc main_arg0) ↦{fullShare.left} V main_arg0)
          ∗ (((c : Thread nD τ).loc main_v0) ↦{fullShare.left} V main_v0) ∗ (((c : Thread nD τ).loc main_arg0) ↦{fullShare.right} V main_arg0)
          ∗ (((c : Thread nD τ).loc main_v0) ↦{fullShare.right} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  have h : ∀ w : Fin cfg1.W, (((cfg1.win w).arr.view.loc (c : Thread nD τ)) ↦[(cfg1.win w).arr.view.set]{dat.share w} Fw w : sProp 𝕄)
      = (((c : Thread nD τ).loc (Pipeline.arrRef spec1 w)) ↦{if (cfg1.win w).isOut then fullShare else q1 w} V (Pipeline.arrRef spec1 w)) := by
    intro w
    rw [(arr_whole1 w).set_eq_univ, hF]
    unfold Dat.share
    rw [hq]
  unfold Dat.arrays
  rw [bigSep_congr (fun w _ => h w), bigSep_W1]
  rfl

/-- The distinct buffers behind the windows' arrays, each whole at the full share at `V`, ARE the windows' arrays at
    their shares at contents `Fw` read off `V`. -/
theorem arrays1_iff {c : Dev nD} (dat : Dat τ (Elt F) Unit ℕ (UR sig nD τ) ℕ cfg1 c) (hq : dat.q = q1)
    (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (Pipeline.arrBufs (Ix := Unit) (Name := ℕ) (U := UR sig nD τ) (Lvl := ℕ) spec1 c V : sProp 𝕄) ⊣⊢ dat.arrays Fw := by
  rw [arrBufs1_eq, arrays1_eq dat hq V Fw hF]
  have hX : ((((c : Thread nD τ).loc main_arg0) ↦{fullShare} V main_arg0) : sProp 𝕄)
      = iprop((((c : Thread nD τ).loc main_arg0) ↦{fullShare.left} V main_arg0) ∗ (((c : Thread nD τ).loc main_arg0) ↦{fullShare.right} V main_arg0)) :=
    BI.equiv_iff.mp ⟨(pointsTo_share (PosShare.mem_left_op_right fullShare)).1, (pointsTo_share (PosShare.mem_left_op_right fullShare)).2⟩
  have hD : ((((c : Thread nD τ).loc main_v0) ↦{fullShare} V main_v0) : sProp 𝕄)
      = iprop((((c : Thread nD τ).loc main_v0) ↦{fullShare.left} V main_v0) ∗ (((c : Thread nD τ).loc main_v0) ↦{fullShare.right} V main_v0)) :=
    BI.equiv_iff.mp ⟨(pointsTo_share (PosShare.mem_left_op_right fullShare)).1, (pointsTo_share (PosShare.mem_left_op_right fullShare)).2⟩
  rw [hX, hD]
  exact sep_congr_right (sep_assoc.trans (sep_congr_right ((sep_congr_right sep_assoc).trans sep_left_comm)))

/-- ENTRY: a core's unscoped buffers at `V` are the region's arrays at contents read off `V`, and the unscoped rest. -/
theorem arrays1_of_unscopedBufs {c : Dev nD} (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest (Ix := Unit) (Name := ℕ) (U := UR sig nD τ) (Lvl := ℕ) spec1 c V) := by
  rw [Pipeline.unscopedBufs_split₀ (Ix := Unit) (Name := ℕ) (U := UR sig nD τ) (Lvl := ℕ) cfgs 1 winFacts₀1.arr_unscoped c V]
  exact sep_mono (arrays1_iff dat hq V dat.A hA).1 .rfl

/-- EXIT: the region's arrays at contents `Fw` and the unscoped rest at `V` are the core's unscoped buffers at any
    valuation `V'` that has the arrays at `Fw` and agrees with `V` off them. -/
theorem unscopedBufs_of_arrays1 {c : Dev nD} (dat : Dat τ (Elt F) Unit ℕ (UR sig nD τ) ℕ cfg1 c) (hq : dat.q = q1)
    (V V' : (b : Ref sig .tc) → Buf (Elt F) ((c : Thread nD τ).loc b))
    (Fw : (w : Fin cfg1.W) → Buf (Elt F) ((cfg1.win w).arr.view.loc (c : Thread nD τ))) (hF : ∀ w, Fw w = V' (Pipeline.arrRef spec1 w))
    (hrest : ∀ b, b ∉ Finset.univ.image (Pipeline.arrRef spec1) → V' b = V b) :
    iprop(dat.arrays Fw ∗ Pipeline.unscopedRest (Ix := Unit) (Name := ℕ) (U := UR sig nD τ) (Lvl := ℕ) spec1 c V) ⊢ (unscopedBufs c V' : sProp 𝕄) := by
  rw [Pipeline.unscopedBufs_split₀ (Ix := Unit) (Name := ℕ) (U := UR sig nD τ) (Lvl := ℕ) cfgs 1 winFacts₀1.arr_unscoped c V']
  refine sep_mono (arrays1_iff dat hq V' Fw hF).2 (Entails.of_eq ?_)
  unfold Pipeline.unscopedRest
  exact bigSep_congr fun b hb => by rw [hrest b (Finset.mem_sdiff.mp hb).2]

end Cert.Kernel.Gen

end
-- ==== Proof.K_Segments.lean ====
/-
  @main of the kernel program as a list of segments — the degree region, the two host operations (the transpose of the
  weights and the reshape of the bias), the message-passing region — and its run: from any memory with zero counters
  every weakly fair execution terminates, and at the end every unscoped buffer holds what the fold below says: the
  launch memory, with the degree array at what the degree region's write-backs leave, the two host results, and the
  result array at what the message-passing region's write-backs leave. The argument arrays are written by nothing, so
  they end as launched. Each region's thread state is every unscoped buffer at the boundary's contents, beside the
  generator register at some state and the core owing nothing.
-/
import proofs.«127069_j5488968204378_1_alg».proof.Proof.K_Region0
import proofs.«127069_j5488968204378_1_alg».proof.Proof.K_Region1
import proofs.«127069_j5488968204378_1_alg».proof.Proof.K_R1Arrays

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the degree region's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At the degree region's exit: its arrays at what the pipeline leaves, every other buffer as entered. -/
def W2 (c : Dev nD) : Valuation τ sig (Elt F) :=
  Pipeline.withArrays spec0 c (W0 m ρ c) fun w => (dat0 (U0 m ρ) c).arrAt w cfg0.N
theorem W2_arr (c : Dev nD) (w : Fin cfg0.W) :
    W2 m ρ c (Proc.devRef .tc (Pipeline.arrRef spec0 w)) = (dat0 (U0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U0 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U0 m ρ c b :=
  fun b hb => W2_of_ne m ρ c b fun w e => hb (Finset.mem_image.mpr ⟨w, Finset.mem_univ _, e⟩)

/-- After the two host operations (the message-passing region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the message-passing region's exit: the result array at what the pipeline leaves, every other buffer as entered. -/
def W4 (c : Dev nD) : Valuation τ sig (Elt F) :=
  Function.update (W3 m ρ c) (Proc.devRef .tc main_v3) ((dat1 (U3 m ρ) c).arrAt 7 cfg1.N)
abbrev U4 : (c : Dev nD) → (b : Ref sig .tc) → Buf (Elt F) ((c : Thread nD τ).loc b) := fun c b => W4 m ρ c b
theorem W4_main_v3 (c : Dev nD) : W4 m ρ c (Proc.devRef .tc main_v3) = (dat1 (U3 m ρ) c).arrAt 7 cfg1.N := by
  unfold W4; exact Function.update_self _ _ _
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _

/-- An input window's array is never written: it ends the region as entered. -/
theorem hF1 (c : Dev nD) (w : Fin cfg1.W) : (dat1 (U3 m ρ) c).arrAt w cfg1.N = U4 m ρ c (Pipeline.arrRef spec1 w) := by
  match w with
  | ⟨0, _⟩ => exact (((dat1 (U3 m ρ) c).arrAt_in 0 rfl _).trans (A_eq1 (U3 m ρ) c 0)).trans (W4_of_ne m ρ c _ (by decide)).symm
  | ⟨1, _⟩ => exact (((dat1 (U3 m ρ) c).arrAt_in 1 rfl _).trans (A_eq1 (U3 m ρ) c 1)).trans (W4_of_ne m ρ c _ (by decide)).symm
  | ⟨2, _⟩ => exact (((dat1 (U3 m ρ) c).arrAt_in 2 rfl _).trans (A_eq1 (U3 m ρ) c 2)).trans (W4_of_ne m ρ c _ (by decide)).symm
  | ⟨3, _⟩ => exact (((dat1 (U3 m ρ) c).arrAt_in 3 rfl _).trans (A_eq1 (U3 m ρ) c 3)).trans (W4_of_ne m ρ c _ (by decide)).symm
  | ⟨4, _⟩ => exact (((dat1 (U3 m ρ) c).arrAt_in 4 rfl _).trans (A_eq1 (U3 m ρ) c 4)).trans (W4_of_ne m ρ c _ (by decide)).symm
  | ⟨5, _⟩ => exact (((dat1 (U3 m ρ) c).arrAt_in 5 rfl _).trans (A_eq1 (U3 m ρ) c 5)).trans (W4_of_ne m ρ c _ (by decide)).symm
  | ⟨6, _⟩ => exact (((dat1 (U3 m ρ) c).arrAt_in 6 rfl _).trans (A_eq1 (U3 m ρ) c 6)).trans (W4_of_ne m ρ c _ (by decide)).symm
  | ⟨7, _⟩ => exact (W4_main_v3 m ρ c).symm
theorem hrest1 (c : Dev nD) : ∀ b, b ∉ Finset.univ.image (Pipeline.arrRef spec1) → U4 m ρ c b = U3 m ρ c b :=
  fun b hb => W4_of_ne m ρ c b fun e => hb (Finset.mem_image.mpr ⟨7, Finset.mem_univ _, e.symm⟩)

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (U0 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The degree region: entered from every unscoped buffer at the launch contents, left at `W2`. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U0 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The message-passing region: entered from every unscoped buffer at `W3`, left at `W4`. Its eight windows stand on
    six buffers; the two on the feature array and the two on the degree array each take a half share at entry and
    give it back at exit. -/
def reg1 : Pipeline.RegionSeg (pcfgs (F := F)) padm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := arrays1_of_unscopedBufs (pdats m ρ 1 c) rfl (U3 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m ρ) c
    unfold Pipeline.ΦA at h
    rw [show (pdats m ρ 1 c).Φ 0 = (dat1 (U3 m ρ) c).Φ 0 from rfl]
    iintro ⟨Hp, -, Hr⟩
    iapply h
    isplitl [Hr]; · iexact Hr
    iexact Hp
  hout c := by
    have h := hout1 (U3 m ρ) c
    unfold Pipeline.ΦA at h
    rw [Pipeline.ownSems0_none, show (pdats m ρ 1 c).Φ (Fin.last _) = (dat1 (U3 m ρ) c).Φ (Fin.last cfg1.N) from rfl]
    iintro Hf
    ihave H := h $$ Hf
    icases H with ⟨Hr, Hp⟩
    isplitl [Hp]; · iexact Hp
    isplitr; · iempintro
    iexact Hr
  hexit c := by
    have hjoin := unscopedBufs_of_arrays1 (pdats m ρ 1 c) rfl (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev psegs : List (Pipeline.Seg (pcfgs (F := F)) padm (pdats m ρ) () defs₀ 𝒱₀ L lv) :=
  [ .region (reg0 m ρ),
    .host (hseg hostOps1 hostOps1_sub hops1_fresh (W2 m ρ)),
    .region (reg1 m ρ) ]
theorem main_run (c : Dev nD) : main (F := F) c = Pipeline.Seg.run (psegs m ρ) := (main_chain c).trans (by chain_rfl)

set_option backward.isDefEq.respectTransparency.types false in
/-- THE RUN: every weakly fair execution of @main terminates, nothing faulting, and at the end every unscoped buffer of
    every core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched; the result is what the last region leaves -/

theorem W3_of_arg (c : Dev nD) (b : Ref sig .tc) (h1 : b ≠ main_v1) (h2 : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact ⟨StableHlo.devRef_ne_of_ne h1, StableHlo.devRef_ne_of_ne h2⟩))

theorem W4_main_arg0 (c : Dev nD) : W4 m ρ c (Proc.devRef .tc main_arg0) = m ((c : Thread nD τ).loc main_arg0) :=
  (W4_of_ne m ρ c main_arg0 (by decide)).trans <| (W3_of_arg m ρ c main_arg0 (by decide) (by decide)).trans <| (W2_of_ne m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of_arg m ρ c main_arg1 (by decide) (by decide)).trans <|
    ((W2_arr m ρ c 0).trans (((dat0 (U0 m ρ) c).arrAt_in 0 rfl _).trans (A_eq0 (U0 m ρ) c 0))).trans rfl
theorem W4_main_arg2 (c : Dev nD) : W4 m ρ c (Proc.devRef .tc main_arg2) = m ((c : Thread nD τ).loc main_arg2) :=
  (W4_of_ne m ρ c main_arg2 (by decide)).trans <| (W3_of_arg m ρ c main_arg2 (by decide) (by decide)).trans <| (W2_of_ne m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of_arg m ρ c main_arg3 (by decide) (by decide)).trans <| (W2_of_ne m ρ c main_arg3 (by decide)).trans rfl

/-- THE FRAME: every execution terminates and the four argument arrays end as launched. -/
theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE RESULT: besides, the result array ends at what the message-passing region's write-backs leave. -/
theorem run_result : θ_run defs (onTc (τ := τ) (main (F := F))) ⟨m, fun _ => 0, ρ⟩ (fun r => ∀ c : Dev nD,
      r.2.mem ((c.tc : Thread nD τ).loc main_v3) = (dat1 (U3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Gen

end
-- ==== Proof.KI_Region0.lean ====
/-
  The degree kernel as a pipeline region, at any float values and at any contents `V` of the core's buffers when the
  region is entered. At grid point t the region stages rows 512·t … 512·t+511 of the adjacency array (all 4096 columns)
  and the body stores, into the staged [512, 1] block of the degree array, one value per row: one over the root of the
  row's sum plus one. The body's only store covers its whole block, so the block after the body is that payload of the
  staged rows; nothing is carried between points and nothing is owed to another core.
-/
import proofs.«127069_j5488968204378_1_alg».proof.Proof.Gen.KernelIdeal.Launch
import proofs.«127069_j5488968204378_1_alg».proof.Proof.Gen.KernelIdeal.Skeleton
import proofs.«127069_j5488968204378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [512, 4096] block and the whole [512, 1] block as rectangles. -/
abbrev rA0 : Rect S512x4096 := Rect.unit (s := S512x4096) ![0, 0] S512x4096.size inb_S512x4096_S512x4096_0_0
abbrev rD0 : Rect S512x1 := Rect.unit (s := S512x1) ![0, 0] S512x1.size inb_S512x1_S512x1_0_0

/-- The degree block after the body, from the staged adjacency rows: the one store's payload. -/
def out0_1 (x0 : Vec F S512x4096 .f32) : Vec F S512x1 .f32 :=
  View.canon [⟨rD0, k0_pay1 (View.ld x0 rA0)⟩]

/-- The store covers the block. -/
theorem cover0_1 (p0 : Vec F S512x1 .f32) (y : S512x1.Idx) :
    ∃ pc ∈ ([⟨rD0, p0⟩] : List (View.Piece (Elt F) S512x1 .f32)), y ∈ pc.1.set :=
  View.cover_of_tiled [⟨rD0, p0⟩] S512x1.size (by rfl) y

set_option maxHeartbeats 1000000 in
/-- The body on whole staging memrefs: the adjacency block kept, the degree block left at `out0_1` of it. -/
theorem sound_kernel0 (c : Dev nD) (E : Set ℕ) (i : grid0.Coords) (arg1 : Memref sig .tc .vmem S512x4096 .f32) (harg1 : arg1.IsWhole)
    (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree region on core `c`: the arrays as entered; after the body the adjacency block in place
    and the degree block at `out0_1` of it; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI_R1Shared.lean ====
/-
  The message-passing kernel as a pipeline region: what its three control cases share. The grid is 8 row blocks by 8
  column blocks, point t = 8·i + k. At every point the body adds, into a [512, 512] scratch accumulator, the product of
  the staged adjacency block (rows of block i, columns of block k) with the staged feature rows of block k scaled by
  their degrees; at k = 0 it first zeroes the accumulator; at k = 7 it then forms the hidden rows from the accumulator,
  the degrees and features of row block i, multiplies by the transposed weights, adds the bias and stores the result
  block. So there are three cases of the two conditionals: k = 0 (reset and add), 0 < k < 7 (add), k = 7 (add and
  finish). The result window is idle except at k = 7, where it is also written back.
-/
import proofs.«127069_j5488968204378_1_alg».proof.Proof.Gen.KernelIdeal.Launch
import proofs.«127069_j5488968204378_1_alg».proof.Proof.Gen.KernelIdeal.Skeleton
import proofs.«127069_j5488968204378_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first conditional's condition (column block 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (column block 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off column block 7 the result window is idle and not written back; at column block 7 it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The staging memrefs at a point, the scratch, and the invariant's pieces -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
/-- The scratch accumulator: a whole scoped buffer of the kernel's own. -/
abbrev scM1 : Memref sig .tc .vmem S512x512 .f32 := Memref.whole cc1_scratch0
/-- Views through which an output block's and the scratch's contents are stated. -/
abbrev VO1 : View sig .tc .vmem S512x512 .f32 := (Memref.whole cc1_stg7_0 : Memref sig .tc .vmem S512x512 .f32).view
abbrev VS1 : View sig .tc .vmem S512x512 .f32 := scM1.view

/-- The scoped buffers the region never names (the degree region's staging buffers), each whole at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

end Cert.KernelIdeal.Gen

end
-- ==== Proof.KI_R1RunA.lean ====
/-
  The message-passing body at a point of column block 0: the accumulator is zeroed, then the block product is added.
  On whole staging memrefs with the seven inputs at their contents, the result block at any contents (handed back
  untouched) and the scratch at anything, the body runs to its end leaving the inputs as they were and the scratch with
  the pieces the run finds written.
-/
import proofs.«127069_j5488968204378_1_alg».proof.Proof.KI_R1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32) :
    { LS : List (View.Piece (Elt F) S512x512 .f32) //
      ∀ (xi9 : Vec F S512x512 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, fun xi9 E K => ?run⟩
  case run =>
    simp only [cc1__gcn_kernel_eq_skeleton]; unfold cc1__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Gen

end
-- ==== Proof.KI_R1RunB.lean ====
/-
  The message-passing body at a point of a middle column block (neither 0 nor 7): the block product is added to the
  accumulator the point before left. Inputs at their contents, the result block at any contents handed back untouched,
  the scratch at the contents carried in; the scratch ends with the pieces the run finds written.
-/
import proofs.«127069_j5488968204378_1_alg».proof.Proof.KI_R1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32) (xs : Vec F S512x512 .f32) :
    { LS : List (View.Piece (Elt F) S512x512 .f32) //
      ∀ (xi9 : Vec F S512x512 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, fun xi9 E K => ?run⟩
  case run =>
    simp only [cc1__gcn_kernel_eq_skeleton]; unfold cc1__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Gen

end
-- ==== Proof.KI_R1RunC.lean ====
/-
  The message-passing body at a point of column block 7: the block product is added to the accumulator carried in, and
  the result block is stored from the finished accumulator. Inputs at their contents, the result block at anything, the
  scratch at the contents carried in; the result block and the scratch end with the pieces the run finds written.
-/
import proofs.«127069_j5488968204378_1_alg».proof.Proof.KI_R1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32) (xs : Vec F S512x512 .f32) :
    Σ' (L9 : List (View.Piece (Elt F) S512x512 .f32)), { LS : List (View.Piece (Elt F) S512x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc1__gcn_kernel_eq_skeleton]; unfold cc1__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.KernelIdeal.Gen

end
-- ==== Proof.KI_Region1.lean ====
/-
  The message-passing region's proof data and body obligation, at any float values and any entry contents `V`.
  After point t the scratch holds the accumulator: at column block 0 the block product added to zero, otherwise added
  to what the point before left; at column block 7 the result block holds the finished rows. The invariant between
  points carries the scratch at that accumulator (before the first point: at anything). The feature array and the
  degree array are each read through two windows, so each window on them holds one half share of its array.
-/
import proofs.«127069_j5488968204378_1_alg».proof.Proof.KI_R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves, read back from the pieces its run found -/

section Cases
variable (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32)

/-- Column block 0: the scratch after the body. -/
def sout1_A (hc0 : cond1_0 i) (hc1 : ¬cond1_1 i) : Vec F S512x512 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x2 x3 x4 x5 x6 x7 x8).1)
theorem scover1_A (hc0 : cond1_0 i) (hc1 : ¬cond1_1 i) (y : S512x512.Idx) :
    ∃ pc ∈ (kernelRun1_A c i arg2 harg2 arg3 harg3 arg4 harg4 arg5 harg5 arg6 harg6 arg7 harg7 arg8 harg8 arg9 harg9 arg10 harg10 hc0 hc1 x2 x3 x4 x5 x6 x7 x8).1, y ∈ pc.1.set :=
  View.cover_of_tiledL (kernelRun1_A c i arg2 harg2 arg3 harg3 arg4 harg4 arg5 harg5 arg6 harg6 arg7 harg7 arg8 harg8 arg9 harg9 arg10 harg10 hc0 hc1 x2 x3 x4 x5 x6 x7 x8).1 S512x512.size (by sl_kernel_rfl) y

/-- A middle column block: the scratch after the body, over what the point before left (`xs`). -/
def sout1_B (hc0 : ¬cond1_0 i) (hc1 : ¬cond1_1 i) (xs : Vec F S512x512 .f32) : Vec F S512x512 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x2 x3 x4 x5 x6 x7 x8 xs).1)
theorem scover1_B (hc0 : ¬cond1_0 i) (hc1 : ¬cond1_1 i) (xs : Vec F S512x512 .f32) (y : S512x512.Idx) :
    ∃ pc ∈ (kernelRun1_B c i arg2 harg2 arg3 harg3 arg4 harg4 arg5 harg5 arg6 harg6 arg7 harg7 arg8 harg8 arg9 harg9 arg10 harg10 hc0 hc1 x2 x3 x4 x5 x6 x7 x8 xs).1, y ∈ pc.1.set :=
  View.cover_of_tiledL (kernelRun1_B c i arg2 harg2 arg3 harg3 arg4 harg4 arg5 harg5 arg6 harg6 arg7 harg7 arg8 harg8 arg9 harg9 arg10 harg10 hc0 hc1 x2 x3 x4 x5 x6 x7 x8 xs).1 S512x512.size (by sl_kernel_rfl) y

/-- Column block 7: the scratch and the result block after the body. -/
def sout1_C (hc0 : ¬cond1_0 i) (hc1 : cond1_1 i) (xs : Vec F S512x512 .f32) : Vec F S512x512 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x2 x3 x4 x5 x6 x7 x8 xs).2.1)
theorem scover1_C (hc0 : ¬cond1_0 i) (hc1 : cond1_1 i) (xs : Vec F S512x512 .f32) (y : S512x512.Idx) :
    ∃ pc ∈ (kernelRun1_C c i arg2 harg2 arg3 harg3 arg4 harg4 arg5 harg5 arg6 harg6 arg7 harg7 arg8 harg8 arg9 harg9 arg10 harg10 hc0 hc1 x2 x3 x4 x5 x6 x7 x8 xs).2.1, y ∈ pc.1.set :=
  View.cover_of_tiledL (kernelRun1_C c i arg2 harg2 arg3 harg3 arg4 harg4 arg5 harg5 arg6 harg6 arg7 harg7 arg8 harg8 arg9 harg9 arg10 harg10 hc0 hc1 x2 x3 x4 x5 x6 x7 x8 xs).2.1 S512x512.size (by sl_kernel_rfl) y
def out1_C (hc0 : ¬cond1_0 i) (hc1 : cond1_1 i) (xs : Vec F S512x512 .f32) : Vec F S512x512 .f32 :=
  VO1.read (Elt F) (VO1.writes (Elt F) VO1.junk (kernelRun1_C c i arg2 harg2 arg3 harg3 arg4 harg4 arg5 harg5 arg6 harg6 arg7 harg7 arg8 harg8 arg9 harg9 arg10 harg10 hc0 hc1 x2 x3 x4 x5 x6 x7 x8 xs).1)
theorem cover1_C (hc0 : ¬cond1_0 i) (hc1 : cond1_1 i) (xs : Vec F S512x512 .f32) (y : S512x512.Idx) :
    ∃ pc ∈ (kernelRun1_C c i arg2 harg2 arg3 harg3 arg4 harg4 arg5 harg5 arg6 harg6 arg7 harg7 arg8 harg8 arg9 harg9 arg10 harg10 hc0 hc1 x2 x3 x4 x5 x6 x7 x8 xs).1, y ∈ pc.1.set :=
  View.cover_of_tiledL (kernelRun1_C c i arg2 harg2 arg3 harg3 arg4 harg4 arg5 harg5 arg6 harg6 arg7 harg7 arg8 harg8 arg9 harg9 arg10 harg10 hc0 hc1 x2 x3 x4 x5 x6 x7 x8 xs).1 S512x512.size (by sl_kernel_rfl) y

end Cases

/-! ## What the result block and the scratch hold after each point -/

/-- After the body at position `n`: (the result block, the scratch). Off column block 7 the result block is not
    stored; its component there is a placeholder nothing reads (the scratch's value). -/
def outsAt1 (c : Dev nD) : (n : ℕ) → n < cfg1.N → Vec F S512x512 .f32 × Vec F S512x512 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) ((hcond1_0 ⟨0, hn⟩).mpr (Nat.zero_mod _)) (fun h => (fun h => by (try dsimp only at h); omega) ((hcond1_1 ⟨0, hn⟩).mp h)), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) ((hcond1_0 ⟨0, hn⟩).mpr (Nat.zero_mod _)) (fun h => (fun h => by (try dsimp only at h); omega) ((hcond1_1 ⟨0, hn⟩).mp h)))
  | n + 1, hn =>
    if h0 : (n + 1) % 8 = 0 then
      if h1 : (n + 1) % 8 = 7 then
        False.elim (by omega)
      else
        (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) ((hcond1_0 ⟨n + 1, hn⟩).mpr h0) (fun h => h1 ((hcond1_1 ⟨n + 1, hn⟩).mp h)), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) ((hcond1_0 ⟨n + 1, hn⟩).mpr h0) (fun h => h1 ((hcond1_1 ⟨n + 1, hn⟩).mp h)))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) ((hcond1_1 ⟨n + 1, hn⟩).mpr h1) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) ((hcond1_1 ⟨n + 1, hn⟩).mpr h1) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) (fun h => h1 ((hcond1_1 ⟨n + 1, hn⟩).mp h)) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 8 = 0) (h1 : ¬t.val % 8 = 7) :
    outsAt1 V c t.val t.isLt = (sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h)), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that are no staging buffer of this region, the scratch among them at `S`. -/
def Scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- The class invariant with the scratch as a memref owned at some contents. -/
theorem PhiA1_eq (c : Dev nD) :
    (Pipeline.ΦA spec1 c : sProp 𝕄)
      = iprop(Scoped1 c (iprop(∃ d, owns (c : Thread nD τ) scM1 fullShare d)) ∗ (∃ r, prngReg c r)) := by
  unfold Pipeline.ΦA Scoped1; rw [scopedRest1_eq]; simp only [scM1, owns_whole]; try rfl

/-- Before position `n`: before the first point the class invariant; afterwards the scratch at what the point before
    left, the generator register at some state. -/
def PhiS1 (c : Dev nD) : (n : ℕ) → n ≤ cfg1.N → sProp 𝕄
  | 0, _ => Pipeline.ΦA spec1 c
  | n + 1, hn => iprop(Scoped1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Scoped1 c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(Scoped1 c (owns (c : Thread nD τ) scM1 fullShare ((outsAt1 V c (n - 1) (by omega)).2)) ∗ (∃ r, prngReg c r)) := by
  cases n with
  | zero => exact absurd rfl hz
  | succ n => rfl

/-! ## The proof data -/

/-- The proof data of the message-passing region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · by_cases h1 : t.val % 8 = 7
    · exfalso; omega
    · rw [Dat.leavesExact_idle (dat1 V c) 7 t (idleAt1_7 t (fun h => h1 ((hcond1_1 t).mp h))) (noFlush1_7 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold Scoped1
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        unfold Scoped1
        iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HA HB HC HD HS Hg]
        · isplitl [HA HB HC HD HS]
          · isplitl [HA]; · iexact HA
            isplitl [HB]; · iexact HB
            isplitl [HC]; · iexact HC
            isplitl [HD]; · iexact HD
            unfold owns; iexists _; isplitr
            swap; · iexact HS
            ipureintro; exact View.read_writes_of_cover _ _ _ _ _ (scover1_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun h => h0 (by rw [h])
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_C sout1_C; (try dsimp only)
      rw [PhiS1_castSucc V c t, PhiS1_pos V c _ _ hz]
      unfold Scoped1
      iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (scover1_C c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C c _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold sout1_B; (try dsimp only)
      rw [PhiS1_castSucc V c t, PhiS1_pos V c _ _ hz]
      unfold Scoped1
      iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (scover1_B c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation of the message-passing region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  unfold Scoped1
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

end Region1

end Cert.KernelIdeal.Gen

end
-- ==== Proof.KI_R1Arrays.lean ====
/-
  The message-passing region reads the feature array through two windows (rows of the column block; rows of the row
  block) and the degree array likewise, so its windows' arrays are six distinct buffers behind eight windows. Holding
  each distinct buffer whole at the full share is the same as holding every window's array at its window's share, when
  the two windows on one buffer hold the two halves of the full share and read the same contents.
-/
import proofs.«127069_j5488968204378_1_alg».proof.Proof.Gen.KernelIdeal.Launch
import Idealize.ShloMosaic.Lib.Pipeline.RegionsLoop
import Idealize.ShloMosaic.Lib.Pipeline.FrameBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the eight windows: the two windows on the feature array and the two on the degree array hold the
    left and right halves; every other input window the full share. -/
def q1 : Fin cfg1.W → PosShare TreeShare := fun w => match w with
  | ⟨0, _⟩ => fullShare
  | ⟨1, _⟩ => fullShare.left
  | ⟨2, _⟩ => fullShare.left
  | ⟨3, _⟩ => fullShare.right
  | ⟨4, _⟩ => fullShare.right
  | ⟨5, _⟩ => fullShare
  | ⟨6, _⟩ => fullShare
  | ⟨7, _⟩ => fullShare

/-- The six distinct buffers behind the eight windows, one by one. -/
theorem arrBufs1_eq {c : Dev nD} (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_arg0) ↦{fullShare} V main_arg0)
          ∗ (((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  unfold Pipeline.arrBufs
  exact bigSep_eq_bigSepL_of_eq [main_arg1, main_arg0, main_v0, main_v1, main_v2, main_v3] (by decide) (by decide) _

/-- The eight windows' arrays at their shares, one by one, at contents read off `V`. -/
theorem arrays1_eq {c : Dev nD} (dat : Dat τ (Elt F) Unit ℕ (UR sig nD τ) ℕ cfg1 c) (hq : dat.q = q1)
    (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (dat.arrays Fw : sProp 𝕄)
      = iprop((((c : Thread nD τ).loc main_arg1) ↦{fullShare} V main_arg1) ∗ (((c : Thread nD τ).loc main_arg0) ↦{fullShare.left} V main_arg0)
          ∗ (((c : Thread nD τ).loc main_v0) ↦{fullShare.left} V main_v0) ∗ (((c : Thread nD τ).loc main_arg0) ↦{fullShare.right} V main_arg0)
          ∗ (((c : Thread nD τ).loc main_v0) ↦{fullShare.right} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  have h : ∀ w : Fin cfg1.W, (((cfg1.win w).arr.view.loc (c : Thread nD τ)) ↦[(cfg1.win w).arr.view.set]{dat.share w} Fw w : sProp 𝕄)
      = (((c : Thread nD τ).loc (Pipeline.arrRef spec1 w)) ↦{if (cfg1.win w).isOut then fullShare else q1 w} V (Pipeline.arrRef spec1 w)) := by
    intro w
    rw [(arr_whole1 w).set_eq_univ, hF]
    unfold Dat.share
    rw [hq]
  unfold Dat.arrays
  rw [bigSep_congr (fun w _ => h w), bigSep_W1]
  rfl

/-- The distinct buffers behind the windows' arrays, each whole at the full share at `V`, ARE the windows' arrays at
    their shares at contents `Fw` read off `V`. -/
theorem arrays1_iff {c : Dev nD} (dat : Dat τ (Elt F) Unit ℕ (UR sig nD τ) ℕ cfg1 c) (hq : dat.q = q1)
    (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (Pipeline.arrBufs (Ix := Unit) (Name := ℕ) (U := UR sig nD τ) (Lvl := ℕ) spec1 c V : sProp 𝕄) ⊣⊢ dat.arrays Fw := by
  rw [arrBufs1_eq, arrays1_eq dat hq V Fw hF]
  have hX : ((((c : Thread nD τ).loc main_arg0) ↦{fullShare} V main_arg0) : sProp 𝕄)
      = iprop((((c : Thread nD τ).loc main_arg0) ↦{fullShare.left} V main_arg0) ∗ (((c : Thread nD τ).loc main_arg0) ↦{fullShare.right} V main_arg0)) :=
    BI.equiv_iff.mp ⟨(pointsTo_share (PosShare.mem_left_op_right fullShare)).1, (pointsTo_share (PosShare.mem_left_op_right fullShare)).2⟩
  have hD : ((((c : Thread nD τ).loc main_v0) ↦{fullShare} V main_v0) : sProp 𝕄)
      = iprop((((c : Thread nD τ).loc main_v0) ↦{fullShare.left} V main_v0) ∗ (((c : Thread nD τ).loc main_v0) ↦{fullShare.right} V main_v0)) :=
    BI.equiv_iff.mp ⟨(pointsTo_share (PosShare.mem_left_op_right fullShare)).1, (pointsTo_share (PosShare.mem_left_op_right fullShare)).2⟩
  rw [hX, hD]
  exact sep_congr_right (sep_assoc.trans (sep_congr_right ((sep_congr_right sep_assoc).trans sep_left_comm)))

/-- ENTRY: a core's unscoped buffers at `V` are the region's arrays at contents read off `V`, and the unscoped rest. -/
theorem arrays1_of_unscopedBufs {c : Dev nD} (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest (Ix := Unit) (Name := ℕ) (U := UR sig nD τ) (Lvl := ℕ) spec1 c V) := by
  rw [Pipeline.unscopedBufs_split₀ (Ix := Unit) (Name := ℕ) (U := UR sig nD τ) (Lvl := ℕ) cfgs 1 winFacts₀1.arr_unscoped c V]
  exact sep_mono (arrays1_iff dat hq V dat.A hA).1 .rfl

/-- EXIT: the region's arrays at contents `Fw` and the unscoped rest at `V` are the core's unscoped buffers at any
    valuation `V'` that has the arrays at `Fw` and agrees with `V` off them. -/
theorem unscopedBufs_of_arrays1 {c : Dev nD} (dat : Dat τ (Elt F) Unit ℕ (UR sig nD τ) ℕ cfg1 c) (hq : dat.q = q1)
    (V V' : (b : Ref sig .tc) → Buf (Elt F) ((c : Thread nD τ).loc b))
    (Fw : (w : Fin cfg1.W) → Buf (Elt F) ((cfg1.win w).arr.view.loc (c : Thread nD τ))) (hF : ∀ w, Fw w = V' (Pipeline.arrRef spec1 w))
    (hrest : ∀ b, b ∉ Finset.univ.image (Pipeline.arrRef spec1) → V' b = V b) :
    iprop(dat.arrays Fw ∗ Pipeline.unscopedRest (Ix := Unit) (Name := ℕ) (U := UR sig nD τ) (Lvl := ℕ) spec1 c V) ⊢ (unscopedBufs c V' : sProp 𝕄) := by
  rw [Pipeline.unscopedBufs_split₀ (Ix := Unit) (Name := ℕ) (U := UR sig nD τ) (Lvl := ℕ) cfgs 1 winFacts₀1.arr_unscoped c V']
  refine sep_mono (arrays1_iff dat hq V' Fw hF).2 (Entails.of_eq ?_)
  unfold Pipeline.unscopedRest
  exact bigSep_congr fun b hb => by rw [hrest b (Finset.mem_sdiff.mp hb).2]

end Cert.KernelIdeal.Gen

end
-- ==== Proof.KI_Segments.lean ====
/-
  @main of the kernel program as a list of segments — the degree region, the two host operations (the transpose of the
  weights and the reshape of the bias), the message-passing region — and its run: from any memory with zero counters
  every weakly fair execution terminates, and at the end every unscoped buffer holds what the fold below says: the
  launch memory, with the degree array at what the degree region's write-backs leave, the two host results, and the
  result array at what the message-passing region's write-backs leave. The argument arrays are written by nothing, so
  they end as launched. Each region's thread state is every unscoped buffer at the boundary's contents, beside the
  generator register at some state and the core owing nothing.
-/
import proofs.«127069_j5488968204378_1_alg».proof.Proof.KI_Region0
import proofs.«127069_j5488968204378_1_alg».proof.Proof.KI_Region1
import proofs.«127069_j5488968204378_1_alg».proof.Proof.KI_R1Arrays

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the degree region's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At the degree region's exit: its arrays at what the pipeline leaves, every other buffer as entered. -/
def W2 (c : Dev nD) : Valuation τ sig (Elt F) :=
  Pipeline.withArrays spec0 c (W0 m ρ c) fun w => (dat0 (U0 m ρ) c).arrAt w cfg0.N
theorem W2_arr (c : Dev nD) (w : Fin cfg0.W) :
    W2 m ρ c (Proc.devRef .tc (Pipeline.arrRef spec0 w)) = (dat0 (U0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U0 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U0 m ρ c b :=
  fun b hb => W2_of_ne m ρ c b fun w e => hb (Finset.mem_image.mpr ⟨w, Finset.mem_univ _, e⟩)

/-- After the two host operations (the message-passing region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the message-passing region's exit: the result array at what the pipeline leaves, every other buffer as entered. -/
def W4 (c : Dev nD) : Valuation τ sig (Elt F) :=
  Function.update (W3 m ρ c) (Proc.devRef .tc main_v3) ((dat1 (U3 m ρ) c).arrAt 7 cfg1.N)
abbrev U4 : (c : Dev nD) → (b : Ref sig .tc) → Buf (Elt F) ((c : Thread nD τ).loc b) := fun c b => W4 m ρ c b
theorem W4_main_v3 (c : Dev nD) : W4 m ρ c (Proc.devRef .tc main_v3) = (dat1 (U3 m ρ) c).arrAt 7 cfg1.N := by
  unfold W4; exact Function.update_self _ _ _
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _

/-- An input window's array is never written: it ends the region as entered. -/
theorem hF1 (c : Dev nD) (w : Fin cfg1.W) : (dat1 (U3 m ρ) c).arrAt w cfg1.N = U4 m ρ c (Pipeline.arrRef spec1 w) := by
  match w with
  | ⟨0, _⟩ => exact (((dat1 (U3 m ρ) c).arrAt_in 0 rfl _).trans (A_eq1 (U3 m ρ) c 0)).trans (W4_of_ne m ρ c _ (by decide)).symm
  | ⟨1, _⟩ => exact (((dat1 (U3 m ρ) c).arrAt_in 1 rfl _).trans (A_eq1 (U3 m ρ) c 1)).trans (W4_of_ne m ρ c _ (by decide)).symm
  | ⟨2, _⟩ => exact (((dat1 (U3 m ρ) c).arrAt_in 2 rfl _).trans (A_eq1 (U3 m ρ) c 2)).trans (W4_of_ne m ρ c _ (by decide)).symm
  | ⟨3, _⟩ => exact (((dat1 (U3 m ρ) c).arrAt_in 3 rfl _).trans (A_eq1 (U3 m ρ) c 3)).trans (W4_of_ne m ρ c _ (by decide)).symm
  | ⟨4, _⟩ => exact (((dat1 (U3 m ρ) c).arrAt_in 4 rfl _).trans (A_eq1 (U3 m ρ) c 4)).trans (W4_of_ne m ρ c _ (by decide)).symm
  | ⟨5, _⟩ => exact (((dat1 (U3 m ρ) c).arrAt_in 5 rfl _).trans (A_eq1 (U3 m ρ) c 5)).trans (W4_of_ne m ρ c _ (by decide)).symm
  | ⟨6, _⟩ => exact (((dat1 (U3 m ρ) c).arrAt_in 6 rfl _).trans (A_eq1 (U3 m ρ) c 6)).trans (W4_of_ne m ρ c _ (by decide)).symm
  | ⟨7, _⟩ => exact (W4_main_v3 m ρ c).symm
theorem hrest1 (c : Dev nD) : ∀ b, b ∉ Finset.univ.image (Pipeline.arrRef spec1) → U4 m ρ c b = U3 m ρ c b :=
  fun b hb => W4_of_ne m ρ c b fun e => hb (Finset.mem_image.mpr ⟨7, Finset.mem_univ _, e.symm⟩)

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (U0 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The degree region: entered from every unscoped buffer at the launch contents, left at `W2`. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U0 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The message-passing region: entered from every unscoped buffer at `W3`, left at `W4`. Its eight windows stand on
    six buffers; the two on the feature array and the two on the degree array each take a half share at entry and
    give it back at exit. -/
def reg1 : Pipeline.RegionSeg (pcfgs (F := F)) padm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := arrays1_of_unscopedBufs (pdats m ρ 1 c) rfl (U3 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m ρ) c
    unfold Pipeline.ΦA at h
    rw [show (pdats m ρ 1 c).Φ 0 = (dat1 (U3 m ρ) c).Φ 0 from rfl]
    iintro ⟨Hp, -, Hr⟩
    iapply h
    isplitl [Hr]; · iexact Hr
    iexact Hp
  hout c := by
    have h := hout1 (U3 m ρ) c
    unfold Pipeline.ΦA at h
    rw [Pipeline.ownSems0_none, show (pdats m ρ 1 c).Φ (Fin.last _) = (dat1 (U3 m ρ) c).Φ (Fin.last cfg1.N) from rfl]
    iintro Hf
    ihave H := h $$ Hf
    icases H with ⟨Hr, Hp⟩
    isplitl [Hp]; · iexact Hp
    isplitr; · iempintro
    iexact Hr
  hexit c := by
    have hjoin := unscopedBufs_of_arrays1 (pdats m ρ 1 c) rfl (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev psegs : List (Pipeline.Seg (pcfgs (F := F)) padm (pdats m ρ) () defs₀ 𝒱₀ L lv) :=
  [ .region (reg0 m ρ),
    .host (hseg hostOps1 hostOps1_sub hops1_fresh (W2 m ρ)),
    .region (reg1 m ρ) ]
theorem main_run (c : Dev nD) : main (F := F) c = Pipeline.Seg.run (psegs m ρ) := (main_chain c).trans (by chain_rfl)

set_option backward.isDefEq.respectTransparency.types false in
/-- THE RUN: every weakly fair execution of @main terminates, nothing faulting, and at the end every unscoped buffer of
    every core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched; the result is what the last region leaves -/

theorem W3_of_arg (c : Dev nD) (b : Ref sig .tc) (h1 : b ≠ main_v1) (h2 : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact ⟨StableHlo.devRef_ne_of_ne h1, StableHlo.devRef_ne_of_ne h2⟩))

theorem W4_main_arg0 (c : Dev nD) : W4 m ρ c (Proc.devRef .tc main_arg0) = m ((c : Thread nD τ).loc main_arg0) :=
  (W4_of_ne m ρ c main_arg0 (by decide)).trans <| (W3_of_arg m ρ c main_arg0 (by decide) (by decide)).trans <| (W2_of_ne m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of_arg m ρ c main_arg1 (by decide) (by decide)).trans <|
    ((W2_arr m ρ c 0).trans (((dat0 (U0 m ρ) c).arrAt_in 0 rfl _).trans (A_eq0 (U0 m ρ) c 0))).trans rfl
theorem W4_main_arg2 (c : Dev nD) : W4 m ρ c (Proc.devRef .tc main_arg2) = m ((c : Thread nD τ).loc main_arg2) :=
  (W4_of_ne m ρ c main_arg2 (by decide)).trans <| (W3_of_arg m ρ c main_arg2 (by decide) (by decide)).trans <| (W2_of_ne m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of_arg m ρ c main_arg3 (by decide) (by decide)).trans <| (W2_of_ne m ρ c main_arg3 (by decide)).trans rfl

/-- THE FRAME: every execution terminates and the four argument arrays end as launched. -/
theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE RESULT: besides, the result array ends at what the message-passing region's write-backs leave. -/
theorem run_result : θ_run defs (onTc (τ := τ) (main (F := F))) ⟨m, fun _ => 0, ρ⟩ (fun r => ∀ c : Dev nD,
      r.2.mem ((c.tc : Thread nD τ).loc main_v3) = (dat1 (U3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Gen

end
-- ==== Proof.LibColumnLayout.lean ====
/-
  Column vectors read at an index given by coordinates: an `[a]` vector viewed as the column `[a, 1]` and back, and a
  column `[a, 1]` broadcast along its rows to `[a, b]`. These are the keepdims forms of a row reduction: the reduction
  leaves one value per row, the cast makes it a column, the broadcast spreads it over the row again. Each lemma is the
  library's index lemma for the operation (`shapeCast_apply`, `broadcastTo_apply`) with both indices written by
  coordinates (`ix1`, `ix2`), so that it applies to a printed operation by unification, at any extents.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` vector cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to the vector `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its rows (axis 1): the source index over the result index `p` with coordinate `k` on
    the dropped axis is `(p, k)`. -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

end Idealize.ShloMosaic.ValueIdx
-- ==== Proof.KI_Payloads.lean ====
/-
  The three arithmetic payloads of the kernel bodies read at an index, at the ideal values.
  The degree payload of a staged [512, 4096] block of adjacency rows is, at row r, one over the root of the row's sum
  plus one. The accumulate payload adds to the accumulator, at (r, f), the sum over the 512 staged columns kk of the
  adjacency entry (r, kk) times the staged feature (kk, f) scaled by the staged degree of kk. The finishing payload is,
  at (r, o), the sum over features f of the hidden entry d r · acc (r, f) + (d r · d r) · x (r, f) times the staged
  transposed weight (f, o), plus the bias o. Changes of float format are the identity here, and a contraction into a
  zero accumulator is the plain sum.
-/
import proofs.«127069_j5488968204378_1_alg».proof.Proof.Gen.KernelIdeal.Skeleton
import proofs.«127069_j5488968204378_1_alg».proof.Proof.LibColumnLayout
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Pay

open Idealize.ShloMosaic Idealize.ShloMosaic.ValueIdx Cert.KernelIdeal Cert.KernelIdeal.Gen

/-! ## The pointwise root, and the row sum -/

/-- A root at an index is the root of the element. -/
theorem sqrt_apply {s : Shape} {φ : FTy} (a : FVec Ideal s φ) (i : s.Idx) : sqrt a i = Ideal.sqrt (a i) := rfl

/-- The lane sum of a [512, 4096] block at row `r` is the sum over the row's 4096 entries. -/
theorem rowsum_apply (v0 : FVec Ideal S512x4096 .f32) (h : S512x4096.Reduces [1] S512) (hφ : FKind.Formats .f32)
    (hacc : (0x00000000#32 : BitVec (FTy.bits .f32)) = FKind.add.neutral .f32 hφ) (r : Fin 512) :
    multiReduction (F := Ideal) .add [1] S512 v0 0x00000000#32 h hφ hacc (ix1 r) = ∑ j : Fin 4096, v0 (ix2 r j) :=
  (Ideal.multiReduction_add_single v0 _ h hφ hacc (ix1 r)).trans
    (Finset.sum_congr rfl fun k _ => congrArg v0 (lift_row h r k))

/-- The degree payload at row `r` (the block's single column). -/
theorem pay_deg_apply (v0 : Vec Ideal S512x4096 .f32) (r : Fin 512) (u : Fin 1) :
    k0_pay1 (F := Ideal) v0 (ix2 r u) = Ideal.div 1 (Ideal.sqrt ((∑ j : Fin 4096, v0 (ix2 r j)) + 1)) := by
  unfold k0_pay1
  dsimp only
  rw [divf_apply, sqrt_apply, addf_apply, broadcast_apply, shapeCast_a_a1_apply]
  exact congrArg₂ Ideal.div Ideal.ofBits_one_f32
    (congrArg Ideal.sqrt (congrArg₂ (· + ·) (rowsum_apply v0 _ _ _ r) Ideal.ofBits_one_f32))

/-- The zeroing payload. -/
theorem pay_zero_apply (r : Fin 512) (f : Fin 512) : k1_pay1 (F := Ideal) (ix2 r f) = 0 := by
  unfold k1_pay1
  rw [shapeCast_self]
  exact Ideal.ofBits_zero_f32

/-! ## The contraction of two [512, 512] blocks into the zero accumulator -/

/-- The left operand's row is the result's row. -/
theorem lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- The left operand's column is the contraction position. -/
theorem lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- The right operand's row is the contraction position. -/
theorem rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- The right operand's column is the result's column. -/
theorem rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The contraction into the zero accumulator at (r, f) is the sum over k of left (r, k) times right (k, f). -/
theorem mm_apply {φ₁ φ₂ : FTy} (L : FVec Ideal S512x512 φ₁) (R : FVec Ideal S512x512 φ₂) (r f : Fin 512) :
    matmul dot_S512x512_S512x512_S512x512_1_0_0_1_n_n none L R (constant (F := Ideal) S512x512 .f32 0x00000000#32) (ix2 r f)
      = ∑ k : Fin 512, L (ix2 r k) * R (ix2 k f) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 r f) ((ValueIdx.contrEquiv1 dot_S512x512_S512x512_S512x512_1_0_0_1_n_n 512 rfl rfl).symm k) = ix2 r k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 r f) ((ValueIdx.contrEquiv1 dot_S512x512_S512x512_S512x512_1_0_0_1_n_n 512 rfl rfl).symm k) = ix2 k f := funext fun a => Fin.ext (by
    match a with
    | ⟨0, _⟩ => exact (rhs_0 _ _).trans hk
    | ⟨1, _⟩ => exact rhs_1 _ _)
  rw [el, er]

/-- The accumulate payload at (r, f): `xk` the staged feature rows, `dk` their degrees, `a` the adjacency block. -/
theorem pay_acc_apply (xk : Vec Ideal S512x512 .f32) (dk : Vec Ideal S512x1 .f32) (a : Vec Ideal S512x512 .f32) (acc : Vec Ideal S512x512 .f32)
    (r : Fin 512) (f : Fin 512) :
    k1_pay2 (F := Ideal) xk dk a acc (ix2 r f)
      = acc (ix2 r f) + ∑ kk : Fin 512, a (ix2 r kk) * (xk (ix2 kk f) * dk (ix2 kk (0 : Fin 1))) := by
  unfold k1_pay2
  simp only [shapeCast_self]
  rw [addf_apply, mm_apply]
  refine congrArg (acc (ix2 r f) + ·) (Finset.sum_congr rfl fun kk _ => ?_)
  rw [truncf_apply, truncf_apply, mulf_apply, broadcastTo_a1_ab_apply]

/-- The finishing payload at (r, o): `di` the row block's degrees, `xi` its features, `wt` the transposed weights, `b` the bias row. -/
theorem pay_out_apply (di : Vec Ideal S512x1 .f32) (acc : Vec Ideal S512x512 .f32) (xi : Vec Ideal S512x512 .f32) (wt : Vec Ideal S512x512 .f32) (b : Vec Ideal S1x512 .f32)
    (r : Fin 512) (o : Fin 512) :
    k1_pay3 (F := Ideal) di acc xi wt b (ix2 r o)
      = (∑ f : Fin 512, (di (ix2 r (0 : Fin 1)) * acc (ix2 r f) + (di (ix2 r (0 : Fin 1)) * di (ix2 r (0 : Fin 1))) * xi (ix2 r f)) * wt (ix2 f o))
        + b (ix2 (0 : Fin 1) o) := by
  unfold k1_pay3
  simp only [shapeCast_self]
  rw [addf_apply, mm_apply, broadcastTo_1b_ab_apply]
  refine congrArg (· + b (ix2 (0 : Fin 1) o)) (Finset.sum_congr rfl fun f _ => ?_)
  rw [truncf_apply, truncf_apply, addf_apply, mulf_apply, mulf_apply, broadcastTo_a1_ab_apply, broadcastTo_a1_ab_apply,
    mulf_apply]

end Cert.KernelIdeal.Pay

end
-- ==== Proof.Spec.lean ====
/-
  The two programs as formulas on the extended reals, index by index, and the law that joins them.

  Kernel. With s i = Σ_j adj[i,j], the degree is d i = 1 / √(s i + 1); the accumulator of row i and feature f is
  Σ over the eight column blocks, and inside a block over its 512 columns, of adj[i,j] · (x[j,f] · d j); the hidden row
  is h[i,f] = d i · acc[i,f] + (d i · d i) · x[i,f]; the result is Σ_f h[i,f] · W[o,f] + b[o].

  Reference. With the identity added, r i = Σ_j (adj[i,j] + δ i j), the degree is 1 / √(r i); the normalised entry is
  (d i · (adj[i,j] + δ i j)) · d j; the hidden row is Σ_j of that times x[j,f]; the result the same product with W plus b.

  The law. When every input entry is a real number and every r i is positive, every degree is a positive real, both
  hidden rows are real, and the two results are equal: r i = s i + 1 because a row of the identity sums to one, and the
  reference's row splits into the off-diagonal sum, where d i factors out, and the diagonal term d i · d i · x[i,f].
  Positivity is what keeps the degree finite: at r i = 0 the quotient 1 / √0 is +∞ and the two groupings part.
-/
import Idealize.ShloMosaic.PureOps.Ideal
import Idealize.ShloMosaic.Lib.ValueIdx

noncomputable section

namespace Cert.Spec

open Idealize.ShloMosaic Idealize.ShloMosaic.ValueIdx

/-- The arrays at the ideal values: functions of an index of the literal shape. -/
abbrev MatX := (⟨2, ![4096, 512]⟩ : Shape).Idx → EReal
abbrev MatA := (⟨2, ![4096, 4096]⟩ : Shape).Idx → EReal
abbrev MatW := (⟨2, ![512, 512]⟩ : Shape).Idx → EReal
abbrev VecB := (⟨1, ![512]⟩ : Shape).Idx → EReal

/-- Column `kk` of column block `kb` (eight blocks of 512 columns). -/
def colOf (kb : Fin 8) (kk : Fin 512) : Fin 4096 := ⟨kb.val * 512 + kk.val, by omega⟩

/-! ## The kernel's side -/

/-- The kernel's degree of row `i`: one over the root of the row sum plus one. -/
def degK (adj : MatA) (i : Fin 4096) : EReal :=
  Ideal.div 1 (Ideal.sqrt ((∑ j : Fin 4096, adj (ix2 i j)) + 1))

/-- The kernel's accumulator, block by block: Σ_kb Σ_kk adj[i, col] · (x[col, f] · d col). -/
def accK (x : MatX) (adj : MatA) (i : Fin 4096) (f : Fin 512) : EReal :=
  ∑ kb : Fin 8, ∑ kk : Fin 512, adj (ix2 i (colOf kb kk)) * (x (ix2 (colOf kb kk) f) * degK adj (colOf kb kk))

/-- The kernel's hidden row. -/
def hK (x : MatX) (adj : MatA) (i : Fin 4096) (f : Fin 512) : EReal :=
  degK adj i * accK x adj i f + (degK adj i * degK adj i) * x (ix2 i f)

/-- The kernel's result. -/
def outK (x : MatX) (adj : MatA) (W : MatW) (b : VecB) (i : Fin 4096) (o : Fin 512) : EReal :=
  (∑ f : Fin 512, hK x adj i f * W (ix2 o f)) + b (ix1 o)

/-! ## The reference's side -/

/-- The identity matrix's entry. -/
def eye (i j : Fin 4096) : EReal := if i = j then 1 else 0

/-- The reference's radicand of row `i`: the row sum of `adj + I`. -/
def radR (adj : MatA) (i : Fin 4096) : EReal := ∑ j : Fin 4096, (adj (ix2 i j) + eye i j)

/-- The reference's degree. -/
def degR (adj : MatA) (i : Fin 4096) : EReal := Ideal.div 1 (Ideal.sqrt (radR adj i))

/-- The reference's hidden row: Σ_j ((d i · (adj[i,j] + δ i j)) · d j) · x[j,f]. -/
def hR (x : MatX) (adj : MatA) (i : Fin 4096) (f : Fin 512) : EReal :=
  ∑ j : Fin 4096, ((degR adj i * (adj (ix2 i j) + eye i j)) * degR adj j) * x (ix2 j f)

/-- The reference's result. -/
def outR (x : MatX) (adj : MatA) (W : MatW) (b : VecB) (i : Fin 4096) (o : Fin 512) : EReal :=
  (∑ f : Fin 512, hR x adj i f * W (ix2 o f)) + b (ix1 o)

/-! ## The law -/

/-- Every entry is a real number. -/
def Finite {α : Type} (v : α → EReal) : Prop := ∀ a, v a ≠ ⊥ ∧ v a ≠ ⊤

/-! ## The steps of the law -/

/-- The coercion of a finite sum of reals is the sum of the coercions. -/
theorem coe_sum {ι : Type} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A family of extended reals with no infinite entry is the coercion of a real family. -/
theorem real_of_finite {α : Type} {v : α → EReal} (h : Finite v) :
    ∃ r : α → ℝ, ∀ a, v a = (r a : EReal) :=
  ⟨fun a => (v a).toReal, fun a => (EReal.coe_toReal (h a).2 (h a).1).symm⟩

/-- The identity's entry is the coercion of the real Kronecker delta. -/
theorem eye_coe (i j : Fin 4096) : eye i j = ((if i = j then 1 else 0 : ℝ) : EReal) := by
  unfold eye
  split_ifs <;> simp

/-- The blocked enumeration of the columns is a bijection: column `j` is column `j % 512` of block `j / 512`. -/
def colEquiv : Fin 8 × Fin 512 ≃ Fin 4096 where
  toFun p := colOf p.1 p.2
  invFun j := (⟨j.val / 512, by omega⟩, ⟨j.val % 512, by omega⟩)
  left_inv := by
    rintro ⟨⟨a, ha⟩, ⟨b, hb⟩⟩
    simp only [colOf, Prod.mk.injEq, Fin.mk.injEq]
    omega
  right_inv := by
    rintro ⟨j, hj⟩
    simp only [colOf, Fin.mk.injEq]
    omega

/-- A sum over the eight blocks and the 512 columns of each is the sum over all 4096 columns. -/
theorem sum_blocks {M : Type} [AddCommMonoid M] (g : Fin 4096 → M) :
    ∑ kb : Fin 8, ∑ kk : Fin 512, g (colOf kb kk) = ∑ j : Fin 4096, g j := by
  rw [← Fintype.sum_prod_type']
  exact Fintype.sum_equiv colEquiv _ _ (fun _ => rfl)

/-- One over the root of a positive real, computed on the extended reals, is the real quotient. -/
theorem div_sqrt_coe {r : ℝ} (hr : 0 < r) :
    Ideal.div 1 (Ideal.sqrt (r : EReal)) = ((1 / Real.sqrt r : ℝ) : EReal) := by
  have hs : Real.sqrt r ≠ 0 := (Real.sqrt_pos.mpr hr).ne'
  rw [Ideal.sqrt_coe, if_neg (not_lt.mpr hr.le), Ideal.div_coe hs, one_mul]

/-- The real identity behind the law: the row of the normalised matrix with the identity added splits into the
    off-diagonal sum, where `d i` factors out, and the diagonal term. -/
theorem real_row {ι : Type} [Fintype ι] [DecidableEq ι] (a d xf : ι → ℝ) (i : ι) :
    ∑ j, ((d i * (a j + (if i = j then 1 else 0))) * d j) * xf j
      = d i * (∑ j, a j * (xf j * d j)) + (d i * d i) * xf i := by
  have h : ∀ j, ((d i * (a j + (if i = j then (1 : ℝ) else 0))) * d j) * xf j
      = d i * (a j * (xf j * d j)) + (if i = j then (d i * d j) * xf j else 0) := by
    intro j
    split_ifs <;> ring
  simp only [h, Finset.sum_add_distrib, ← Finset.mul_sum, Finset.sum_ite_eq, Finset.mem_univ, if_true]

/-- With real entries `a`, the reference's radicand of row `i` is the real `Σ_j a i j + 1`. -/
theorem radR_coe (adj : MatA) (a : Fin 4096 → Fin 4096 → ℝ)
    (h : ∀ i j, adj (ix2 i j) = (a i j : EReal)) (i : Fin 4096) :
    radR adj i = (((∑ j, a i j) + 1 : ℝ) : EReal) := by
  have h1 : ∑ j : Fin 4096, (if i = j then (1 : ℝ) else 0) = 1 := by
    simp only [Finset.sum_ite_eq, Finset.mem_univ, if_true]
  unfold radR
  simp only [h, eye_coe, ← EReal.coe_add, ← coe_sum]
  rw [Finset.sum_add_distrib, h1]

/-- With real entries `a`, the kernel's radicand of row `i` is the same real. -/
theorem radK_coe (adj : MatA) (a : Fin 4096 → Fin 4096 → ℝ)
    (h : ∀ i j, adj (ix2 i j) = (a i j : EReal)) (i : Fin 4096) :
    (∑ j : Fin 4096, adj (ix2 i j)) + 1 = (((∑ j, a i j) + 1 : ℝ) : EReal) := by
  simp only [h, ← coe_sum]
  rw [EReal.coe_add, EReal.coe_one]

/-- The hidden rows agree. -/
theorem hK_eq_hR (x : MatX) (adj : MatA) (hx : Finite x) (ha : Finite adj) (hpos : ∀ i, 0 < radR adj i)
    (i : Fin 4096) (f : Fin 512) : hK x adj i f = hR x adj i f := by
  obtain ⟨xr, hxr⟩ := real_of_finite hx
  obtain ⟨ar, har⟩ := real_of_finite ha
  have h : ∀ i j, adj (ix2 i j) = ((ar (ix2 i j) : ℝ) : EReal) := fun i j => har _
  have hxr' : ∀ j f, x (ix2 j f) = ((xr (ix2 j f) : ℝ) : EReal) := fun j f => hxr _
  have hr : ∀ i, 0 < (∑ j, ar (ix2 i j)) + 1 := by
    intro i
    have := hpos i
    rw [radR_coe adj (fun i j => ar (ix2 i j)) h i] at this
    exact EReal.coe_pos.mp this
  have hdK : ∀ i, degK adj i = ((1 / Real.sqrt ((∑ j, ar (ix2 i j)) + 1) : ℝ) : EReal) := by
    intro i
    unfold degK
    rw [radK_coe adj (fun i j => ar (ix2 i j)) h i, div_sqrt_coe (hr i)]
  have hdR : ∀ i, degR adj i = ((1 / Real.sqrt ((∑ j, ar (ix2 i j)) + 1) : ℝ) : EReal) := by
    intro i
    unfold degR
    rw [radR_coe adj (fun i j => ar (ix2 i j)) h i, div_sqrt_coe (hr i)]
  unfold hK hR accK
  rw [sum_blocks (fun j => adj (ix2 i j) * (x (ix2 j f) * degK adj j))]
  simp only [h, hxr', hdK, hdR, eye_coe, ← EReal.coe_mul, ← EReal.coe_add, ← coe_sum]
  exact congrArg _ (real_row (fun k => ar (ix2 i k)) (fun k => 1 / Real.sqrt ((∑ j, ar (ix2 k j)) + 1))
    (fun k => xr (ix2 k f)) i).symm

/-- Under real inputs and positive radicands the two results are equal, entry by entry. -/
theorem outK_eq_outR (x : MatX) (adj : MatA) (W : MatW) (b : VecB)
    (hx : Finite x) (ha : Finite adj) (hW : Finite W) (hb : Finite b) (hpos : ∀ i, 0 < radR adj i)
    (i : Fin 4096) (o : Fin 512) : outK x adj W b i o = outR x adj W b i o := by
  have h : ∀ f, hK x adj i f = hR x adj i f := fun f => hK_eq_hR x adj hx ha hpos i f
  simp only [outK, outR, h]

end Cert.Spec

end
-- ==== Proof.SpecArr.lean ====
/-
  A [4096, 512] array given by its entries.
-/
import proofs.«127069_j5488968204378_1_alg».proof.Proof.Spec

noncomputable section

namespace Cert.Spec

open Idealize.ShloMosaic Idealize.ShloMosaic.ValueIdx

/-- The array whose entry at (p, q) is `g p q`. -/
def arrOf (g : Fin 4096 → Fin 512 → EReal) : (⟨2, ![4096, 512]⟩ : Shape).Idx → EReal := fun idx => g (idx 0) (idx 1)

theorem arrOf_ix2 (g : Fin 4096 → Fin 512 → EReal) (p : Fin 4096) (q : Fin 512) : arrOf g (ix2 p q) = g p q := rfl

/-- Two arrays with equal entries are equal. -/
theorem ext_ix2 {f g : (⟨2, ![4096, 512]⟩ : Shape).Idx → EReal} (h : ∀ (p : Fin 4096) (q : Fin 512), f (ix2 p q) = g (ix2 p q)) : f = g :=
  funext fun idx => by rw [eq_ix2 idx]; exact h _ _

end Cert.Spec

end
-- ==== Proof.KI_Result.lean ====
/-
  The idealized kernel program's run with its result named: every weakly fair execution terminates, the four argument
  arrays end as launched, and the result array ends at the kernel's formula `Cert.Spec.outK` of the launch contents of
  the features, the adjacency, the weights and the bias. Between the two regions the degree array holds the kernel's
  degrees (the degree region's write-backs), the weight operand is the transpose of the weights and the bias operand
  the bias as a row; the adjacency and feature arrays are written by nothing.
-/
import proofs.«127069_j5488968204378_1_alg».proof.Proof.KI_Segments
import proofs.«127069_j5488968204378_1_alg».proof.Proof.KI_Payloads
import proofs.«127069_j5488968204378_1_alg».proof.Proof.SpecArr
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The arrays the message-passing region finds -/

/-- The feature array at the message-passing region's entry is the launch's. -/
theorem U3_arg0 (c : Dev nD) : U3 m ρ c main_arg0 = m ((c : Thread nD τ).loc main_arg0) :=
  (W3_of_arg m ρ c main_arg0 (by decide) (by decide)).trans <| (W2_of_ne m ρ c main_arg0 (by decide)).trans rfl

/-- The adjacency array at the message-passing region's entry is the launch's. -/
theorem U3_arg1 (c : Dev nD) : U3 m ρ c main_arg1 = m ((c : Thread nD τ).loc main_arg1) :=
  (W3_of_arg m ρ c main_arg1 (by decide) (by decide)).trans <|
    ((W2_arr m ρ c 0).trans (((dat0 (U0 m ρ) c).arrAt_in 0 rfl _).trans (A_eq0 (U0 m ρ) c 0))).trans rfl

/-- The degree array at the message-passing region's entry is what the degree region left. -/
theorem U3_v0 (c : Dev nD) : U3 m ρ c main_v0 = (dat0 (U0 m ρ) c).arrAt 1 cfg0.N :=
  (W3_of_arg m ρ c main_v0 (by decide) (by decide)).trans (W2_arr m ρ c 1)

/-- The weight array after the degree region is the launch's. -/
theorem W2_arg2 (c : Dev nD) : W2 m ρ c (Proc.devRef .tc main_arg2) = m ((c : Thread nD τ).loc main_arg2) :=
  (W2_of_ne m ρ c main_arg2 (by decide)).trans rfl

/-- The bias array after the degree region is the launch's. -/
theorem W2_arg3 (c : Dev nD) : W2 m ρ c (Proc.devRef .tc main_arg3) = m ((c : Thread nD τ).loc main_arg3) :=
  (W2_of_ne m ρ c main_arg3 (by decide)).trans rfl

/-! ## The two host results -/

/-- The weight operand is the transpose of the weights the degree region left. -/
theorem U3_v1 (c : Dev nD) :
    (U3 m ρ c main_v1 : S512x512.Idx → EReal)
      = transpose S512x512 [1, 0] (W2 m ρ c (Proc.devRef .tc main_arg2) : S512x512.Idx → EReal) Facts₀.transposes_S512x512_S512x512_1_0 := by
  show StableHlo.after hostOps1 (W2 m ρ c) (Proc.devRef .tc main_v1) = _
  after_results

/-- The bias operand is the bias the degree region left, as a row. -/
theorem U3_v2 (c : Dev nD) :
    (U3 m ρ c main_v2 : S1x512.Idx → EReal)
      = shapeCast S1x512 (W2 m ρ c (Proc.devRef .tc main_arg3) : S512.Idx → EReal) Facts₀.shapeCasts_S512_S1x512 := by
  show StableHlo.after hostOps1 (W2 m ρ c) (Proc.devRef .tc main_v2) = _
  after_results
  rfl

/-! ## The three value facts at the message-passing region's entry -/

/-- The degree array holds the kernel's degrees of the launch adjacency. -/
theorem hd_of
    (hdeg : ∀ (V : (c : Dev nD) → (b : Ref sig .tc) → Buf (Elt Ideal) ((c : Thread nD τ).loc b)) (c : Dev nD) (j : Fin 4096),
      ((dat0 (F := Ideal) V c).arrAt 1 cfg0.N : S4096x1.Idx → EReal) (ix2 j (0 : Fin 1)) = Cert.Spec.degK (V c main_arg1) j)
    (c : Dev nD) (j : Fin 4096) :
    (U3 m ρ c main_v0 : S4096x1.Idx → EReal) (ix2 j (0 : Fin 1)) = Cert.Spec.degK (U3 m ρ c main_arg1) j := by
  rw [U3_v0, U3_arg1]
  exact hdeg (U0 m ρ) c j

/-- The weight operand at (f, o) is the launch weight at (o, f). -/
theorem hw_of (c : Dev nD) (f o : Fin 512) :
    (U3 m ρ c main_v1 : S512x512.Idx → EReal) (ix2 f o)
      = (m ((c : Thread nD τ).loc main_arg2) : S512x512.Idx → EReal) (ix2 o f) := by
  rw [U3_v1, transpose_ix2_apply, W2_arg2]

/-- The bias operand at (0, o) is the launch bias at o. -/
theorem hb_of (c : Dev nD) (o : Fin 512) :
    (U3 m ρ c main_v2 : S1x512.Idx → EReal) (ix2 (0 : Fin 1) o)
      = (m ((c : Thread nD τ).loc main_arg3) : S512.Idx → EReal) (ix1 o) := by
  rw [U3_v2, shapeCast_a_1a_apply, W2_arg3]

/-- THE KERNEL'S VALUE, given what each region leaves in its output array: `hdeg`, the degree array after the degree
    region holds the kernel's degrees of the adjacency array it found; `hres`, the result array after the message-passing
    region is the kernel's formula of the arrays it found, when the degree array it found holds the degrees, the weight
    operand the transposed weights and the bias operand the bias row. -/
theorem kernel_value_of
    (hdeg : ∀ (V : (c : Dev nD) → (b : Ref sig .tc) → Buf (Elt Ideal) ((c : Thread nD τ).loc b)) (c : Dev nD) (j : Fin 4096),
      ((dat0 (F := Ideal) V c).arrAt 1 cfg0.N : S4096x1.Idx → EReal) (ix2 j (0 : Fin 1)) = Cert.Spec.degK (V c main_arg1) j)
    (hres : ∀ (V : (c : Dev nD) → (b : Ref sig .tc) → Buf (Elt Ideal) ((c : Thread nD τ).loc b)) (c : Dev nD)
      (W : Cert.Spec.MatW) (b : Cert.Spec.VecB),
      (∀ j : Fin 4096, (V c main_v0 : S4096x1.Idx → EReal) (ix2 j (0 : Fin 1)) = Cert.Spec.degK (V c main_arg1) j) →
      (∀ (f o : Fin 512), (V c main_v1 : S512x512.Idx → EReal) (ix2 f o) = W (ix2 o f)) →
      (∀ o : Fin 512, (V c main_v2 : S1x512.Idx → EReal) (ix2 (0 : Fin 1) o) = b (ix1 o)) →
      ∀ (p : Fin 4096) (q : Fin 512), ((dat1 (F := Ideal) V c).arrAt 7 cfg1.N : S4096x512.Idx → EReal) (ix2 p q)
        = Cert.Spec.outK (V c main_arg0) (V c main_arg1) W b p q) :
    θ_run (defs (F := Ideal)) (onTc (τ := τ) (main (F := Ideal))) ⟨m, fun _ => 0, ρ⟩ (fun r => ∀ c : Dev nD,
      r.2.mem ((c.tc : Thread nD τ).loc main_v3)
        = Cert.Spec.arrOf (Cert.Spec.outK (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2⟩) (run_result m ρ)
  refine Cert.Spec.ext_ix2 fun p q => ?_
  rw [Cert.Spec.arrOf_ix2]
  have e := hres (U3 m ρ) c (m ((c : Thread nD τ).loc main_arg2)) (m ((c : Thread nD τ).loc main_arg3))
    (hd_of m ρ hdeg c) (hw_of m ρ c) (hb_of m ρ c) p q
  rw [U3_arg0, U3_arg1] at e
  exact e

end Cert.KernelIdeal.Val

end
-- ==== Proof.KI_R0Value.lean ====
/-
  What the degree region leaves in the degree array, at the ideal values: entry j (the array is a [4096, 1] column) is
  the kernel's degree of row j of the adjacency array as the region found it. Point t writes back the [512, 1] block of
  rows 512·t … 512·t+511, each entry the degree payload of the staged adjacency rows; the eight blocks tile the column.
-/
import proofs.«127069_j5488968204378_1_alg».proof.Proof.KI_Region0
import proofs.«127069_j5488968204378_1_alg».proof.Proof.KI_Payloads
import proofs.«127069_j5488968204378_1_alg».proof.Proof.Spec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

section DegreeArray

variable (V : (c : Dev nD) → (b : Ref sig .tc) → Buf (Elt Ideal) ((c : Thread nD τ).loc b))

theorem hz_deg : (![0, 0] : Fin 2 → Nat) = fun _ => 0 := funext fun a => by fin_cases a <;> rfl

/-- The degree column as one function of the adjacency array: entry (p, 0) is the kernel's degree of row p. -/
abbrev degCol (adj : S4096x4096.Idx → EReal) : S4096x1.Idx → EReal := fun i => Cert.Spec.degK adj (i 0)

/-- The printed index maps over the grid: both windows' blocks are block row `t`, block column 0. -/
theorem idx_facts_deg : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the degree column of the adjacency array as the region finds it. -/
theorem flushed_deg (c : Dev nD) (t : Fin cfg0.N) :
    (dat0 V c).flushed 1 t = ((cfg0.win 1).blk t).view.read (Elt Ideal) (degCol (V c main_arg1)) := by
  show (cfg0.win 1).cut (grid0.coords t) ((dat0 V c).after 1 t) = _
  rw [after0_1]
  unfold out0_1
  rw [View.canon_unit_zero hz_deg]
  obtain ⟨e0, e1, e2, e3⟩ := idx_facts_deg t
  funext y
  obtain ⟨r, u, rfl⟩ : ∃ (r : Fin 512) (u : Fin 1), y = ix2 r u := ⟨y 0, y 1, eq_ix2 y⟩
  show k0_pay1 (View.ld (iblk0 V c 0 t) rA0) (ix2 r u) = degCol (V c main_arg1) (((cfg0.win 1).blk t).view.emb (ix2 r u))
  rw [Pay.pay_deg_apply]
  rw [show View.ld (iblk0 V c 0 t) rA0 = iblk0 V c 0 t from View.ld_unit_zero (S := S512x4096) hz_deg _ _]
  have ht : t.val < 8 := Nat.lt_of_lt_of_eq t.isLt N_0
  have hrow : ∀ j : Fin 4096, iblk0 V c 0 t (ix2 r j) = V c main_arg1 (ix2 (⟨512 * t.val + r.val, by omega⟩ : Fin 4096) j) := by
    intro j
    show V c main_arg1 (((cfg0.win 0).blk t).view.emb (ix2 r j)) = V c main_arg1 _
    congr 1
    funext a
    apply Fin.ext
    match a with
    | ⟨0, _⟩ => show win0_0.index t (0 : Fin 2) * 512 + 1 * r.val = 512 * t.val + r.val; omega
    | ⟨1, _⟩ => show win0_0.index t (1 : Fin 2) * 4096 + 1 * j.val = j.val; omega
  have hp : (((View.whole main_v0).slice ((win0 1).rect t)).emb (ix2 r u)) 0 = (⟨512 * t.val + r.val, by omega⟩ : Fin 4096) := by
    apply Fin.ext
    show win0_1.index t (0 : Fin 2) * 512 + 1 * r.val = 512 * t.val + r.val
    omega
  show _ = Cert.Spec.degK (V c main_arg1) ((((View.whole main_v0).slice ((win0 1).rect t)).emb (ix2 r u)) 0)
  rw [hp]
  unfold Cert.Spec.degK
  simp only [hrow]

/-- An index of the column is in point `t`'s block iff each coordinate is in the block's range on its axis. -/
theorem mem_blk_deg (t : Fin cfg0.N) (i : S4096x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the column lies in the block of the point that is its block row: row p in the block of point p / 512. -/
theorem cover_deg (i : S4096x1.Idx) :
    ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, htv⟩ : ∃ t : Fin cfg0.N, t.val = (i 0).val / 512 :=
    ⟨⟨(i 0).val / 512, Nat.lt_of_lt_of_eq (show (i 0).val / 512 < 8 by omega) N_0.symm⟩, rfl⟩
  obtain ⟨e0, e1, e2, e3⟩ := idx_facts_deg t
  refine ⟨t, flush0_1 t, ?_⟩
  rw [mem_blk_deg]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- The degree array after the run of the region: the degree column of the adjacency array as the region found it. -/
theorem final_deg (c : Dev nD) : (dat0 V c).arrAt 1 cfg0.N = degCol (V c main_arg1) :=
  (dat0 V c).arrAt_eq_of_cover 1 (degCol (V c main_arg1)) (fun t _ => flushed_deg V c t) cover_deg

end DegreeArray

/-- The degree array after the degree region: the kernel's degree of each row. -/
theorem deg_array (V : (c : Dev nD) → (b : Ref sig .tc) → Buf (Elt Ideal) ((c : Thread nD τ).loc b)) (c : Dev nD) (j : Fin 4096) :
    ((dat0 (F := Ideal) V c).arrAt 1 cfg0.N : S4096x1.Idx → EReal) (ix2 j (0 : Fin 1)) = Cert.Spec.degK (V c main_arg1) j := by
  exact congrFun (final_deg V c) (ix2 j (0 : Fin 1))

end Cert.KernelIdeal.Val

end
-- ==== Proof.KI_R1Pieces.lean ====
/-
  What each control case of the message-passing body leaves, as the arithmetic payloads of the staged blocks: at column
  block 0 the scratch ends at the accumulate payload over the zeroing payload; at a later column block at the accumulate
  payload over what the point before left; at column block 7 the result block ends at the finishing payload of that
  new accumulator. Each store covers its whole buffer, and a load of the scratch after a store reads the stored value.
-/
import proofs.«127069_j5488968204378_1_alg».proof.Proof.KI_Region1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, however they are spelt. -/
theorem zero_offsets : (![0, 0] : Fin 2 → Nat) = fun _ => 0 := funext fun a => by fin_cases a <;> rfl

section Pieces
variable (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S512x512 .f32) (harg10 : arg10.IsWhole) (x2 : Vec F S512x512 .f32) (x3 : Vec F S512x512 .f32) (x4 : Vec F S512x1 .f32) (x5 : Vec F S512x512 .f32) (x6 : Vec F S512x1 .f32) (x7 : Vec F S512x512 .f32) (x8 : Vec F S1x512 .f32)

theorem sout1_A_eq (hc0 : cond1_0 i) (hc1 : ¬cond1_1 i) :
    sout1_A c i arg2 harg2 arg3 harg3 arg4 harg4 arg5 harg5 arg6 harg6 arg7 harg7 arg8 harg8 arg9 harg9 arg10 harg10 x2 x3 x4 x5 x6 x7 x8 hc0 hc1 = k1_pay2 x3 x4 x2 (k1_pay1 (F := F)) := by
  unfold sout1_A
  rw [View.read_writes_eq_canon _ _ _ (scover1_A c i arg2 harg2 arg3 harg3 arg4 harg4 arg5 harg5 arg6 harg6 arg7 harg7 arg8 harg8 arg9 harg9 arg10 harg10 x2 x3 x4 x5 x6 x7 x8 hc0 hc1)]
  unfold kernelRun1_A
  dsimp only
  sl_unfold_words
  rw [View.canon_cons_unit_zero (S := S512x512) zero_offsets, View.readCov_unit_zero (S := S512x512) _ zero_offsets]
  simp only [View.readAt_eq_ld, harg2.read_unread, harg3.read_unread, harg4.read_unread, harg5.read_unread, harg6.read_unread, harg7.read_unread, harg8.read_unread, harg9.read_unread, harg10.read_unread, View.readCov_unit_zero (S := S512x512) _ zero_offsets, View.ld_unit_zero (S := S512x512) zero_offsets, View.ld_unit_zero (S := S512x1) zero_offsets, View.ld_unit_zero (S := S1x512) zero_offsets]

theorem sout1_B_eq (hc0 : ¬cond1_0 i) (hc1 : ¬cond1_1 i) (xs : Vec F S512x512 .f32) :
    sout1_B c i arg2 harg2 arg3 harg3 arg4 harg4 arg5 harg5 arg6 harg6 arg7 harg7 arg8 harg8 arg9 harg9 arg10 harg10 x2 x3 x4 x5 x6 x7 x8 hc0 hc1 xs = k1_pay2 x3 x4 x2 xs := by
  unfold sout1_B
  rw [View.read_writes_eq_canon _ _ _ (scover1_B c i arg2 harg2 arg3 harg3 arg4 harg4 arg5 harg5 arg6 harg6 arg7 harg7 arg8 harg8 arg9 harg9 arg10 harg10 x2 x3 x4 x5 x6 x7 x8 hc0 hc1 xs)]
  unfold kernelRun1_B
  dsimp only
  sl_unfold_words
  rw [View.canon_unit_zero (S := S512x512) zero_offsets]
  simp only [View.readAt_eq_ld, harg2.read_unread, harg3.read_unread, harg4.read_unread, harg5.read_unread, harg6.read_unread, harg7.read_unread, harg8.read_unread, harg9.read_unread, harg10.read_unread, View.readCov_unit_zero (S := S512x512) _ zero_offsets, View.ld_unit_zero (S := S512x512) zero_offsets, View.ld_unit_zero (S := S512x1) zero_offsets, View.ld_unit_zero (S := S1x512) zero_offsets]

theorem sout1_C_eq (hc0 : ¬cond1_0 i) (hc1 : cond1_1 i) (xs : Vec F S512x512 .f32) :
    sout1_C c i arg2 harg2 arg3 harg3 arg4 harg4 arg5 harg5 arg6 harg6 arg7 harg7 arg8 harg8 arg9 harg9 arg10 harg10 x2 x3 x4 x5 x6 x7 x8 hc0 hc1 xs = k1_pay2 x3 x4 x2 xs := by
  unfold sout1_C
  rw [View.read_writes_eq_canon _ _ _ (scover1_C c i arg2 harg2 arg3 harg3 arg4 harg4 arg5 harg5 arg6 harg6 arg7 harg7 arg8 harg8 arg9 harg9 arg10 harg10 x2 x3 x4 x5 x6 x7 x8 hc0 hc1 xs)]
  unfold kernelRun1_C
  dsimp only
  sl_unfold_words
  rw [View.canon_unit_zero (S := S512x512) zero_offsets]
  simp only [View.readAt_eq_ld, harg2.read_unread, harg3.read_unread, harg4.read_unread, harg5.read_unread, harg6.read_unread, harg7.read_unread, harg8.read_unread, harg9.read_unread, harg10.read_unread, View.readCov_unit_zero (S := S512x512) _ zero_offsets, View.ld_unit_zero (S := S512x512) zero_offsets, View.ld_unit_zero (S := S512x1) zero_offsets, View.ld_unit_zero (S := S1x512) zero_offsets]

theorem out1_C_eq (hc0 : ¬cond1_0 i) (hc1 : cond1_1 i) (xs : Vec F S512x512 .f32) :
    out1_C c i arg2 harg2 arg3 harg3 arg4 harg4 arg5 harg5 arg6 harg6 arg7 harg7 arg8 harg8 arg9 harg9 arg10 harg10 x2 x3 x4 x5 x6 x7 x8 hc0 hc1 xs = k1_pay3 x6 (k1_pay2 x3 x4 x2 xs) x5 x7 x8 := by
  unfold out1_C
  rw [View.read_writes_eq_canon _ _ _ (cover1_C c i arg2 harg2 arg3 harg3 arg4 harg4 arg5 harg5 arg6 harg6 arg7 harg7 arg8 harg8 arg9 harg9 arg10 harg10 x2 x3 x4 x5 x6 x7 x8 hc0 hc1 xs)]
  unfold kernelRun1_C
  dsimp only
  sl_unfold_words
  rw [View.canon_unit_zero (S := S512x512) zero_offsets]
  simp only [View.readAt_eq_ld, harg2.read_unread, harg3.read_unread, harg4.read_unread, harg5.read_unread, harg6.read_unread, harg7.read_unread, harg8.read_unread, harg9.read_unread, harg10.read_unread, View.readCov_unit_zero (S := S512x512) _ zero_offsets, View.ld_unit_zero (S := S512x512) zero_offsets, View.ld_unit_zero (S := S512x1) zero_offsets, View.ld_unit_zero (S := S1x512) zero_offsets]

end Pieces

end Cert.KernelIdeal.Gen

end
-- ==== Proof.KI_R1Value.lean ====
/-
  What the message-passing region leaves in the result array, at the ideal values: entry (p, q) is the kernel's formula
  `Cert.Spec.outK` of the feature and adjacency arrays as the region found them, when the degree array it found holds
  the kernel's degrees, the weight operand the transposed weights and the bias operand the bias row. After point
  t = 8·i + k the scratch holds, at (r, f), the sum over column blocks 0 … k of the block products for row 512·i + r;
  at k = 7 the result block of row block i is the finishing payload of that sum, and the eight result blocks tile the array.
-/
import proofs.«127069_j5488968204378_1_alg».proof.Proof.KI_Region1
import proofs.«127069_j5488968204378_1_alg».proof.Proof.KI_R1Pieces
import proofs.«127069_j5488968204378_1_alg».proof.Proof.KI_Payloads
import proofs.«127069_j5488968204378_1_alg».proof.Proof.Spec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

/-! ## Where a block sits in its array -/

/-- Position `r` of block `b` along an axis of 4096 entries cut into blocks of 512: entry `512·b + r` (for `b < 8`). -/
def gidx (b : ℕ) (r : Fin 512) : Fin 4096 := ⟨(b * 512 + r.val) % 4096, Nat.mod_lt _ (by decide)⟩

/-- Below eight blocks it is the blocked column of the specification. -/
theorem gidx_eq_colOf (kb : Fin 8) (kk : Fin 512) : gidx kb.val kk = Cert.Spec.colOf kb kk := by
  apply Fin.ext
  show (kb.val * 512 + kk.val) % 4096 = kb.val * 512 + kk.val
  have := kb.isLt
  have := kk.isLt
  omega

/-- Every row of the array is a position of its row block. -/
theorem gidx_div_mod (p : Fin 4096) : gidx (p.val / 512) ⟨p.val % 512, Nat.mod_lt _ (by decide)⟩ = p := by
  apply Fin.ext
  show (p.val / 512 * 512 + p.val % 512) % 4096 = p.val
  have := p.isLt
  omega

/-- The block each window stages at point t = 8·i + k: the adjacency block (i, k); the feature rows and degrees of
    block k; the feature rows and degrees of block i; the whole weight and bias operands; the result block i. -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 8 ∧ win1_7.index t (1 : Fin 2) = 0 :=
  (by decide +kernel : ∀ t : Fin grid1.N, _)

/-! ## The arrays the region finds, at their literal types -/

section Arrays

variable (V : (c : Dev nD) → (b : Ref sig .tc) → Buf (Elt Ideal) ((c : Thread nD τ).loc b)) (c : Dev nD)

/-- The adjacency array. -/
abbrev adjA : S4096x4096.Idx → EReal := V c main_arg1
/-- The feature array. -/
abbrev featA : S4096x512.Idx → EReal := V c main_arg0
/-- The degree array the first region left. -/
abbrev degA : S4096x1.Idx → EReal := V c main_v0
/-- The weight operand. -/
abbrev wtA : S512x512.Idx → EReal := V c main_v1
/-- The bias operand. -/
abbrev biasA : S1x512.Idx → EReal := V c main_v2

end Arrays

section Blocks

variable (V : (c : Dev nD) → (b : Ref sig .tc) → Buf (Elt Ideal) ((c : Thread nD τ).loc b)) (c : Dev nD)

/-- The staged adjacency block at (r, kk) is the adjacency at row r of row block i, column kk of column block k. -/
theorem ablk_apply (t : Fin cfg1.N) (r kk : Fin 512) :
    (iblk1 V c 0 t : Vec Ideal S512x512 .f32) (ix2 r kk)
      = adjA V c (ix2 (gidx (t.val / 8) r) (gidx (t.val % 8) kk)) := by
  have hN : t.val < 64 := lt_of_lt_of_eq t.isLt N_1
  obtain ⟨e0, e1, -⟩ := idx_facts t
  show V c main_arg1 (((cfg1.win 0).blk t).view.emb (ix2 r kk)) = V c main_arg1 _
  refine congrArg (V c main_arg1 : S4096x4096.Idx → EReal) (funext fun a => Fin.ext ?_)
  match a with
  | ⟨0, _⟩ => show win1_0.index t (0 : Fin 2) * 512 + 1 * r.val = (t.val / 8 * 512 + r.val) % 4096; rw [e0]; omega
  | ⟨1, _⟩ => show win1_0.index t (1 : Fin 2) * 512 + 1 * kk.val = (t.val % 8 * 512 + kk.val) % 4096; rw [e1]; omega

/-- The staged feature rows of column block k at (kk, f). -/
theorem xkblk_apply (t : Fin cfg1.N) (kk f : Fin 512) :
    (iblk1 V c 1 t : Vec Ideal S512x512 .f32) (ix2 kk f)
      = featA V c (ix2 (gidx (t.val % 8) kk) f) := by
  have hN : t.val < 64 := lt_of_lt_of_eq t.isLt N_1
  obtain ⟨-, -, e0, e1, -⟩ := idx_facts t
  show V c main_arg0 (((cfg1.win 1).blk t).view.emb (ix2 kk f)) = V c main_arg0 _
  refine congrArg (V c main_arg0 : S4096x512.Idx → EReal) (funext fun a => Fin.ext ?_)
  match a with
  | ⟨0, _⟩ => show win1_1.index t (0 : Fin 2) * 512 + 1 * kk.val = (t.val % 8 * 512 + kk.val) % 4096; rw [e0]; omega
  | ⟨1, _⟩ => show win1_1.index t (1 : Fin 2) * 512 + 1 * f.val = f.val; rw [e1]; omega

/-- The staged degrees of column block k at row kk. -/
theorem dkblk_apply (t : Fin cfg1.N) (kk : Fin 512) (u : Fin 1) :
    (iblk1 V c 2 t : Vec Ideal S512x1 .f32) (ix2 kk u)
      = degA V c (ix2 (gidx (t.val % 8) kk) u) := by
  have hN : t.val < 64 := lt_of_lt_of_eq t.isLt N_1
  obtain ⟨-, -, -, -, e0, e1, -⟩ := idx_facts t
  show V c main_v0 (((cfg1.win 2).blk t).view.emb (ix2 kk u)) = V c main_v0 _
  refine congrArg (V c main_v0 : S4096x1.Idx → EReal) (funext fun a => Fin.ext ?_)
  match a with
  | ⟨0, _⟩ => show win1_2.index t (0 : Fin 2) * 512 + 1 * kk.val = (t.val % 8 * 512 + kk.val) % 4096; rw [e0]; omega
  | ⟨1, _⟩ => show win1_2.index t (1 : Fin 2) * 1 + 1 * u.val = u.val; rw [e1]; omega

/-- The staged feature rows of row block i at (r, f). -/
theorem xiblk_apply (t : Fin cfg1.N) (r f : Fin 512) :
    (iblk1 V c 3 t : Vec Ideal S512x512 .f32) (ix2 r f)
      = featA V c (ix2 (gidx (t.val / 8) r) f) := by
  have hN : t.val < 64 := lt_of_lt_of_eq t.isLt N_1
  obtain ⟨-, -, -, -, -, -, e0, e1, -⟩ := idx_facts t
  show V c main_arg0 (((cfg1.win 3).blk t).view.emb (ix2 r f)) = V c main_arg0 _
  refine congrArg (V c main_arg0 : S4096x512.Idx → EReal) (funext fun a => Fin.ext ?_)
  match a with
  | ⟨0, _⟩ => show win1_3.index t (0 : Fin 2) * 512 + 1 * r.val = (t.val / 8 * 512 + r.val) % 4096; rw [e0]; omega
  | ⟨1, _⟩ => show win1_3.index t (1 : Fin 2) * 512 + 1 * f.val = f.val; rw [e1]; omega

/-- The staged degrees of row block i at row r. -/
theorem diblk_apply (t : Fin cfg1.N) (r : Fin 512) (u : Fin 1) :
    (iblk1 V c 4 t : Vec Ideal S512x1 .f32) (ix2 r u)
      = degA V c (ix2 (gidx (t.val / 8) r) u) := by
  have hN : t.val < 64 := lt_of_lt_of_eq t.isLt N_1
  obtain ⟨-, -, -, -, -, -, -, -, e0, e1, -⟩ := idx_facts t
  show V c main_v0 (((cfg1.win 4).blk t).view.emb (ix2 r u)) = V c main_v0 _
  refine congrArg (V c main_v0 : S4096x1.Idx → EReal) (funext fun a => Fin.ext ?_)
  match a with
  | ⟨0, _⟩ => show win1_4.index t (0 : Fin 2) * 512 + 1 * r.val = (t.val / 8 * 512 + r.val) % 4096; rw [e0]; omega
  | ⟨1, _⟩ => show win1_4.index t (1 : Fin 2) * 1 + 1 * u.val = u.val; rw [e1]; omega

/-- The staged weight operand is the whole operand. -/
theorem wblk_apply (t : Fin cfg1.N) (f o : Fin 512) :
    (iblk1 V c 5 t : Vec Ideal S512x512 .f32) (ix2 f o) = wtA V c (ix2 f o) := by
  obtain ⟨-, -, -, -, -, -, -, -, -, -, e0, e1, -⟩ := idx_facts t
  show V c main_v1 (((cfg1.win 5).blk t).view.emb (ix2 f o)) = V c main_v1 _
  refine congrArg (V c main_v1 : S512x512.Idx → EReal) (funext fun a => Fin.ext ?_)
  match a with
  | ⟨0, _⟩ => show win1_5.index t (0 : Fin 2) * 512 + 1 * f.val = f.val; rw [e0]; omega
  | ⟨1, _⟩ => show win1_5.index t (1 : Fin 2) * 512 + 1 * o.val = o.val; rw [e1]; omega

/-- The staged bias operand is the whole operand. -/
theorem bblk_apply (t : Fin cfg1.N) (u : Fin 1) (o : Fin 512) :
    (iblk1 V c 6 t : Vec Ideal S1x512 .f32) (ix2 u o) = biasA V c (ix2 u o) := by
  obtain ⟨-, -, -, -, -, -, -, -, -, -, -, -, e0, e1, -⟩ := idx_facts t
  show V c main_v2 (((cfg1.win 6).blk t).view.emb (ix2 u o)) = V c main_v2 _
  refine congrArg (V c main_v2 : S1x512.Idx → EReal) (funext fun a => Fin.ext ?_)
  match a with
  | ⟨0, _⟩ => show win1_6.index t (0 : Fin 2) * 1 + 1 * u.val = u.val; rw [e0]; omega
  | ⟨1, _⟩ => show win1_6.index t (1 : Fin 2) * 512 + 1 * o.val = o.val; rw [e1]; omega

end Blocks

/-! ## What the scratch holds after each point -/

section Invariant

variable (V : (c : Dev nD) → (b : Ref sig .tc) → Buf (Elt Ideal) ((c : Thread nD τ).loc b)) (c : Dev nD)

/-- The product of column block `kb` for row r of row block `ib` and feature f: the sum over the block's 512 columns of
    the adjacency entry times the feature entry scaled by the degree array's entry. -/
def blkTerm (ib kb : ℕ) (r f : Fin 512) : EReal :=
  ∑ kk : Fin 512, adjA V c (ix2 (gidx ib r) (gidx kb kk))
    * (featA V c (ix2 (gidx kb kk) f) * degA V c (ix2 (gidx kb kk) (0 : Fin 1)))

/-- The accumulator of row block `ib` after column blocks 0 … k. -/
def accAfter (ib k : ℕ) (r f : Fin 512) : EReal := ∑ kb ∈ Finset.range (k + 1), blkTerm V c ib kb r f

/-- At point t = 8·i + k the accumulate payload adds the product of column block k. -/
theorem acc_step (t : Fin cfg1.N) (acc : Vec Ideal S512x512 .f32) (r f : Fin 512) :
    k1_pay2 (F := Ideal) (iblk1 V c 1 t) (iblk1 V c 2 t) (iblk1 V c 0 t) acc (ix2 r f)
      = acc (ix2 r f) + blkTerm V c (t.val / 8) (t.val % 8) r f := by
  refine (Cert.KernelIdeal.Pay.pay_acc_apply (iblk1 V c 1 t) (iblk1 V c 2 t) (iblk1 V c 0 t) acc r f).trans ?_
  unfold blkTerm
  refine congrArg (acc (ix2 r f) + ·) (Finset.sum_congr rfl fun kk _ => ?_)
  rw [ablk_apply V c t r kk, xkblk_apply V c t kk f, dkblk_apply V c t kk (0 : Fin 1)]

/-- At column block 0 the scratch ends at the accumulate payload over the zeroing payload. -/
theorem scratch_first (t : Fin cfg1.N) (h0 : t.val % 8 = 0) :
    (outsAt1 V c t.val t.isLt).2
      = k1_pay2 (F := Ideal) (iblk1 V c 1 t) (iblk1 V c 2 t) (iblk1 V c 0 t) (k1_pay1 (F := Ideal)) := by
  have h1 : ¬t.val % 8 = 7 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h))

/-- At a later column block it ends at the accumulate payload over what the point before left. -/
theorem scratch_next (t : Fin cfg1.N) (h0 : ¬t.val % 8 = 0) :
    (outsAt1 V c t.val t.isLt).2
      = k1_pay2 (F := Ideal) (iblk1 V c 1 t) (iblk1 V c 2 t) (iblk1 V c 0 t) (outsAt1 V c (t.val - 1) (Nat.lt_of_le_of_lt (Nat.sub_le _ _) t.isLt)).2 := by
  by_cases h1 : t.val % 8 = 7
  · rw [outsAt1_C V c t h0 h1]
    dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) (outsAt1 V c (t.val - 1) (Nat.lt_of_le_of_lt (Nat.sub_le _ _) t.isLt)).2

/-- At column block 7 the result block is the finishing payload of the scratch as the point leaves it. -/
theorem result_block (t : Fin cfg1.N) (h0 : ¬t.val % 8 = 0) (h1 : t.val % 8 = 7) :
    (outsAt1 V c t.val t.isLt).1
      = k1_pay3 (F := Ideal) (iblk1 V c 4 t) (outsAt1 V c t.val t.isLt).2 (iblk1 V c 3 t) (iblk1 V c 5 t) (iblk1 V c 6 t) := by
  rw [outsAt1_C V c t h0 h1]
  dsimp only
  exact (out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2).trans
    (congrArg (fun a => k1_pay3 (F := Ideal) (iblk1 V c 4 t) a (iblk1 V c 3 t) (iblk1 V c 5 t) (iblk1 V c 6 t))
      (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) (outsAt1 V c (t.val - 1) (Nat.lt_of_le_of_lt (Nat.sub_le _ _) t.isLt)).2).symm)

/-- After point n = 8·i + k the scratch holds, at (r, f), the sum of the products of column blocks 0 … k for row r of
    row block i. -/
theorem scratch_inv : ∀ (n : ℕ) (hn : n < cfg1.N) (r f : Fin 512),
    (outsAt1 V c n hn).2 (ix2 r f) = accAfter V c (n / 8) (n % 8) r f := by
  intro n
  induction n using Nat.strong_induction_on with
  | _ n ih =>
    intro hn r f
    by_cases h0 : n % 8 = 0
    · refine (congrFun (scratch_first V c ⟨n, hn⟩ h0) (ix2 r f)).trans ?_
      refine (acc_step V c ⟨n, hn⟩ (k1_pay1 (F := Ideal)) r f).trans ?_
      show k1_pay1 (F := Ideal) (ix2 r f) + blkTerm V c (n / 8) (n % 8) r f = _
      unfold accAfter
      rw [Cert.KernelIdeal.Pay.pay_zero_apply, zero_add, h0, Finset.sum_range_succ, Finset.sum_range_zero, zero_add]
    · have hpos : n ≠ 0 := by rintro rfl; exact h0 rfl
      refine (congrFun (scratch_next V c ⟨n, hn⟩ h0) (ix2 r f)).trans ?_
      refine (acc_step V c ⟨n, hn⟩ _ r f).trans ?_
      show (outsAt1 V c (n - 1) _).2 (ix2 r f) + blkTerm V c (n / 8) (n % 8) r f = _
      rw [ih (n - 1) (by omega) _ r f]
      have hq : (n - 1) / 8 = n / 8 := by omega
      have hm : n % 8 = (n - 1) % 8 + 1 := by omega
      unfold accAfter
      rw [hq, hm, Finset.sum_range_succ (fun kb => blkTerm V c (n / 8) kb r f) ((n - 1) % 8 + 1)]

end Invariant

/-! ## The result block at column block 7, and the result array -/

section Result

variable (V : (c : Dev nD) → (b : Ref sig .tc) → Buf (Elt Ideal) ((c : Thread nD τ).loc b)) (c : Dev nD)
  (W : Cert.Spec.MatW) (b : Cert.Spec.VecB)

/-- With the degree array at the kernel's degrees, the accumulator after all eight column blocks is the kernel's
    accumulator of that row. -/
theorem accAfter_seven (hd : ∀ j : Fin 4096, degA V c (ix2 j (0 : Fin 1)) = Cert.Spec.degK (adjA V c) j)
    (ib : ℕ) (r f : Fin 512) :
    accAfter V c ib 7 r f = Cert.Spec.accK (featA V c) (adjA V c) (gidx ib r) f := by
  unfold accAfter Cert.Spec.accK
  show ∑ kb ∈ Finset.range 8, blkTerm V c ib kb r f = _
  rw [Finset.sum_range (fun kb => blkTerm V c ib kb r f)]
  refine Finset.sum_congr rfl fun kb _ => ?_
  unfold blkTerm
  refine Finset.sum_congr rfl fun kk _ => ?_
  rw [gidx_eq_colOf kb kk, hd]

/-- The array the region leaves: the kernel's formula at every entry. -/
abbrev G : S4096x512.Idx → EReal := fun idx => Cert.Spec.outK (featA V c) (adjA V c) W b (idx 0) (idx 1)

/-- At a point of column block 7 the result block holds, at (r, o), the kernel's formula for row r of row block i. -/
theorem result_entry (hd : ∀ j : Fin 4096, degA V c (ix2 j (0 : Fin 1)) = Cert.Spec.degK (adjA V c) j)
    (hw : ∀ (f o : Fin 512), wtA V c (ix2 f o) = W (ix2 o f))
    (hb : ∀ o : Fin 512, biasA V c (ix2 (0 : Fin 1) o) = b (ix1 o))
    (t : Fin cfg1.N) (h1 : t.val % 8 = 7) (r o : Fin 512) :
    (outsAt1 V c t.val t.isLt).1 (ix2 r o)
      = Cert.Spec.outK (featA V c) (adjA V c) W b (gidx (t.val / 8) r) o := by
  have h0 : ¬t.val % 8 = 0 := by omega
  refine (congrFun (result_block V c t h0 h1) (ix2 r o)).trans ?_
  refine (Cert.KernelIdeal.Pay.pay_out_apply (iblk1 V c 4 t) (outsAt1 V c t.val t.isLt).2 (iblk1 V c 3 t)
    (iblk1 V c 5 t) (iblk1 V c 6 t) r o).trans ?_
  unfold Cert.Spec.outK Cert.Spec.hK
  rw [bblk_apply V c t (0 : Fin 1) o, hb o]
  refine congrArg (· + b (ix1 o)) (Finset.sum_congr rfl fun f _ => ?_)
  rw [diblk_apply V c t r (0 : Fin 1), hd, scratch_inv V c t.val t.isLt r f, h1, accAfter_seven V c hd,
    xiblk_apply V c t r f, wblk_apply V c t f o, hw f o]

/-- The same as one function of the block's index. -/
theorem result_fun (hd : ∀ j : Fin 4096, degA V c (ix2 j (0 : Fin 1)) = Cert.Spec.degK (adjA V c) j)
    (hw : ∀ (f o : Fin 512), wtA V c (ix2 f o) = W (ix2 o f))
    (hb : ∀ o : Fin 512, biasA V c (ix2 (0 : Fin 1) o) = b (ix1 o))
    (t : Fin cfg1.N) (h1 : t.val % 8 = 7) :
    ((outsAt1 V c t.val t.isLt).1 : S512x512.Idx → EReal)
      = fun y : S512x512.Idx => Cert.Spec.outK (featA V c) (adjA V c) W b (gidx (t.val / 8) (y 0)) (y 1) := by
  funext y
  obtain ⟨r, o, rfl⟩ : ∃ (r o : Fin 512), y = ix2 r o := ⟨y 0, y 1, eq_ix2 y⟩
  exact result_entry V c W b hd hw hb t h1 r o

/-- What a point of column block 7 writes back is its block of that array. -/
theorem flushed_eq (hd : ∀ j : Fin 4096, degA V c (ix2 j (0 : Fin 1)) = Cert.Spec.degK (adjA V c) j)
    (hw : ∀ (f o : Fin 512), wtA V c (ix2 f o) = W (ix2 o f))
    (hb : ∀ o : Fin 512, biasA V c (ix2 (0 : Fin 1) o) = b (ix1 o))
    (t : Fin cfg1.N) (hf : (cfg1.win 7).flush t = true) :
    (dat1 V c).flushed 7 t = ((cfg1.win 7).blk t).view.read (Elt Ideal) (G V c W b) := by
  have h1 : t.val % 8 = 7 := (flush1_7 t).mp hf
  have hN : t.val < 64 := lt_of_lt_of_eq t.isLt N_1
  obtain ⟨-, -, -, -, -, -, -, -, -, -, -, -, -, -, e0, e1⟩ := idx_facts t
  show (cfg1.win 7).cut (grid1.coords t) ((dat1 V c).after 7 t) = _
  rw [after1_7]
  funext y
  show (outsAt1 V c t.val t.isLt).1 y = G V c W b (((cfg1.win 7).blk t).view.emb y)
  refine (congrFun (result_fun V c W b hd hw hb t h1) y).trans ?_
  show Cert.Spec.outK (featA V c) (adjA V c) W b (gidx (t.val / 8) (y 0)) (y 1)
    = Cert.Spec.outK (featA V c) (adjA V c) W b ((((cfg1.win 7).blk t).view.emb y) 0) ((((cfg1.win 7).blk t).view.emb y) 1)
  have hy0 : (y 0).val < 512 := (y 0).isLt
  have hy1 : (y 1).val < 512 := (y 1).isLt
  refine congrArg₂ (Cert.Spec.outK (featA V c) (adjA V c) W b) (Fin.ext ?_) (Fin.ext ?_)
  · show (t.val / 8 * 512 + (y 0).val) % 4096 = win1_7.index t (0 : Fin 2) * 512 + 1 * (y 0).val
    rw [e0]; omega
  · show (y 1).val = win1_7.index t (1 : Fin 2) * 512 + 1 * (y 1).val
    rw [e1]; omega

/-- An entry of the result array is in a point's result block exactly when each coordinate is in the block's range. -/
theorem mem_blk (t : Fin cfg1.N) (i : S4096x512.Idx) :
    i ∈ ((cfg1.win 7).blk t).view.set ↔ ∀ a : Fin 2, win1_7.index t a * S512x512.size a ≤ (i a).val
      ∧ (i a).val < win1_7.index t a * S512x512.size a + S512x512.size a := by
  show i ∈ ((View.whole main_v3).slice (win1_7.rect t)).set ↔ _
  rw [View.set_slice_whole, Rect.mem_set_unit]
  exact Iff.rfl

/-- Row p of the result array is written back at the last point of its row block, 8·(p / 512) + 7. -/
theorem cover (i : S4096x512.Idx) :
    ∃ t : Fin cfg1.N, (cfg1.win 7).flush t = true ∧ i ∈ ((cfg1.win 7).blk t).view.set := by
  have hi0 : (i 0).val < 4096 := (i 0).isLt
  have hi1 : (i 1).val < 512 := (i 1).isLt
  have hN : cfg1.N = 64 := N_1
  obtain ⟨t, ht⟩ : ∃ t : Fin cfg1.N, t.val = 8 * ((i 0).val / 512) + 7 := ⟨⟨8 * ((i 0).val / 512) + 7, by rw [hN]; omega⟩, rfl⟩
  obtain ⟨-, -, -, -, -, -, -, -, -, -, -, -, -, -, e0, e1⟩ := idx_facts t
  refine ⟨t, (flush1_7 t).mpr (by omega), ?_⟩
  rw [mem_blk]
  intro a
  match a with
  | ⟨0, _⟩ =>
    show win1_7.index t (0 : Fin 2) * 512 ≤ (i 0).val ∧ (i 0).val < win1_7.index t (0 : Fin 2) * 512 + 512
    rw [e0]; omega
  | ⟨1, _⟩ =>
    show win1_7.index t (1 : Fin 2) * 512 ≤ (i 1).val ∧ (i 1).val < win1_7.index t (1 : Fin 2) * 512 + 512
    rw [e1]; omega

/-- The result array after the region is that array. -/
theorem final (hd : ∀ j : Fin 4096, degA V c (ix2 j (0 : Fin 1)) = Cert.Spec.degK (adjA V c) j)
    (hw : ∀ (f o : Fin 512), wtA V c (ix2 f o) = W (ix2 o f))
    (hb : ∀ o : Fin 512, biasA V c (ix2 (0 : Fin 1) o) = b (ix1 o)) :
    (dat1 V c).arrAt 7 cfg1.N = G V c W b :=
  (dat1 V c).arrAt_eq_of_cover 7 (G V c W b) (fun t hf => flushed_eq V c W b hd hw hb t hf) (fun i => cover i)

end Result

/-- The result array after the message-passing region is the kernel's formula of the arrays it found. -/
theorem result_array (V : (c : Dev nD) → (b : Ref sig .tc) → Buf (Elt Ideal) ((c : Thread nD τ).loc b)) (c : Dev nD)
    (W : Cert.Spec.MatW) (b : Cert.Spec.VecB)
    (hd : ∀ j : Fin 4096, (V c main_v0 : S4096x1.Idx → EReal) (ix2 j (0 : Fin 1)) = Cert.Spec.degK (V c main_arg1) j)
    (hw : ∀ (f o : Fin 512), (V c main_v1 : S512x512.Idx → EReal) (ix2 f o) = W (ix2 o f))
    (hb : ∀ o : Fin 512, (V c main_v2 : S1x512.Idx → EReal) (ix2 (0 : Fin 1) o) = b (ix1 o))
    (p : Fin 4096) (q : Fin 512) :
    ((dat1 (F := Ideal) V c).arrAt 7 cfg1.N : S4096x512.Idx → EReal) (ix2 p q)
      = Cert.Spec.outK (V c main_arg0) (V c main_arg1) W b p q := by
  exact congrFun (final V c W b hd hw hb) (ix2 p q)

end Cert.KernelIdeal.Val

end
-- ==== Proof.RefValue.lean ====
/-
  The reference's result, read stage by stage at an index, is the formula `Cert.Spec.outR` of its argument arrays:
  the identity matrix from the two iotas' comparison, the row sum of `adj + I`, its root and reciprocal as the degree,
  the degree spread over rows and over columns, the two contractions, the bias.
-/
import proofs.«127069_j5488968204378_1_alg».proof.Proof.Gen.ReferenceIdeal.Run
import proofs.«127069_j5488968204378_1_alg».proof.Proof.Gen.ReferenceIdeal.Read
import proofs.«127069_j5488968204378_1_alg».proof.Proof.Spec
import Idealize.ShloMosaic.Lib.IdealHost

noncomputable section

namespace Cert.RefValue

open Idealize.ShloMosaic Idealize.ShloMosaic.ValueIdx Cert.ReferenceIdeal

/-! ## The identity matrix -/

/-- Two row or column numbers below 4096 have the same 32-bit word exactly when they are equal. -/
theorem ofNat_inj (i j : Fin 4096) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl
    rfl

/-- The converted comparison of the row number (plus the zero word) with the column number is the identity's entry. -/
theorem eye_apply (i j : Fin 4096) : Read.val_main_v5 (F := Ideal) (ix2 i j) = Spec.eye i j := by
  rw [Read.val_main_v5_apply, Read.val_main_v4_apply, Read.val_main_v3_apply, Read.val_main_v2_apply,
    Read.val_main_c_apply, Read.val_main_v0_apply, Read.val_main_v1_apply]
  show (((BitVec.ofBool (BitVec.ofNat 32 i.val + 0#32 == BitVec.ofNat 32 j.val)).toNat : ℝ) : EReal)
    = if i = j then 1 else 0
  rw [BitVec.add_zero]
  by_cases h : i = j
  · subst h
    simp
  · rw [if_neg h]
    have hb : (BitVec.ofNat 32 i.val == BitVec.ofNat 32 j.val) = false := by
      rw [beq_eq_false_iff_ne]
      exact fun e => h ((ofNat_inj i j).mp e)
    rw [hb]
    simp

/-! ## The row sum and the degree -/

/-- The reduction reads row `i` at column `k`. -/
theorem idx7 (i k : Fin 4096) : Read.idx_main_v7 (ix1 i) k = ix2 i k :=
  funext fun a => Fin.ext (by match a with | ⟨0, _⟩ => rfl | ⟨1, _⟩ => rfl)

/-- The summand: the adjacency entry plus the identity's. -/
theorem summand_apply (x1 : (⟨S4096x4096, .f32⟩ : BufTy).Contents (Elt Ideal)) (i j : Fin 4096) :
    Read.val_main_v6 (F := Ideal) x1 (ix2 i j) = x1 (ix2 i j) + Spec.eye i j := by
  rw [Read.val_main_v6_apply, eye_apply]
  rfl

/-- The row sum is the radicand. -/
theorem rad_apply (x1 : (⟨S4096x4096, .f32⟩ : BufTy).Contents (Elt Ideal)) (i : Fin 4096) :
    Read.val_main_v7 (F := Ideal) x1 (ix1 i) = Spec.radR x1 i := by
  rw [Read.val_main_v7_apply, Read.val_main_cst_apply]
  simp only [idx7, summand_apply]
  rw [Ideal.ofBits_def, Ideal.ofBits_zero_f32, zero_add]
  rfl

/-- One over the root of the row sum is the degree. -/
theorem deg_apply (x1 : (⟨S4096x4096, .f32⟩ : BufTy).Contents (Elt Ideal)) (i : Fin 4096) :
    Read.val_main_v10 (F := Ideal) x1 (ix1 i) = Spec.degR x1 i := by
  rw [Read.val_main_v10_apply, Read.val_main_v9_apply, Read.val_main_cst_0_apply, Read.val_main_v8_apply,
    rad_apply, Ideal.ofBits_def, Ideal.ofBits_one_f32]
  rfl

/-! ## The normalised matrix -/

/-- The degree spread over rows reads the row's degree. -/
theorem idx_row (i j : Fin 4096) : Read.idx_main_v11 (Read.idx_main_v12 (ix2 i j)) = ix1 i :=
  funext fun a => Fin.ext (by match a with | ⟨0, _⟩ => rfl)

/-- The degree spread over columns reads the column's degree. -/
theorem idx_col (i j : Fin 4096) : Read.idx_main_v14 (Read.idx_main_v15 (ix2 i j)) = ix1 j :=
  funext fun a => Fin.ext (by match a with | ⟨0, _⟩ => rfl)

/-- The normalised entry: the row's degree times the summand, times the column's degree. -/
theorem norm_apply (x1 : (⟨S4096x4096, .f32⟩ : BufTy).Contents (Elt Ideal)) (i j : Fin 4096) :
    Read.val_main_v16 (F := Ideal) x1 (ix2 i j)
      = (Spec.degR x1 i * (x1 (ix2 i j) + Spec.eye i j)) * Spec.degR x1 j := by
  rw [Read.val_main_v16_apply, Read.val_main_v13_apply, Read.val_main_v12_apply, Read.val_main_v11_apply,
    Read.val_main_v15_apply, Read.val_main_v14_apply, idx_row, idx_col, deg_apply, deg_apply, summand_apply]
  rfl

/-! ## The two contractions and the bias -/

/-- The first contraction's left operand is read at row `i`, column `k`. -/
theorem lidx17 (i : Fin 4096) (f : Fin 512) (k : Fin 4096) : Read.lidx_main_v17 (ix2 i f) k = ix2 i k :=
  funext fun a => Fin.ext (by match a with | ⟨0, _⟩ => rfl | ⟨1, _⟩ => rfl)

/-- The first contraction's right operand is read at row `k`, column `f`. -/
theorem ridx17 (i : Fin 4096) (f : Fin 512) (k : Fin 4096) : Read.ridx_main_v17 (ix2 i f) k = ix2 k f :=
  funext fun a => Fin.ext (by match a with | ⟨0, _⟩ => rfl | ⟨1, _⟩ => rfl)

/-- The first contraction is the hidden row. -/
theorem h_apply (x0 : (⟨S4096x512, .f32⟩ : BufTy).Contents (Elt Ideal))
    (x1 : (⟨S4096x4096, .f32⟩ : BufTy).Contents (Elt Ideal)) (i : Fin 4096) (f : Fin 512) :
    Read.val_main_v17 (F := Ideal) x0 x1 (ix2 i f) = Spec.hR x0 x1 i f := by
  rw [Read.val_main_v17_apply]
  simp only [lidx17, ridx17, norm_apply]
  rfl

/-- The second contraction's left operand is read at row `p`, column `k`. -/
theorem lidx19 (p : Fin 4096) (q k : Fin 512) : Read.lidx_main_v19 (ix2 p q) k = ix2 p k :=
  funext fun a => Fin.ext (by match a with | ⟨0, _⟩ => rfl | ⟨1, _⟩ => rfl)

/-- The second contraction's right operand, the transposed weights, is the weights at row `q`, column `k`. -/
theorem ridx19 (p : Fin 4096) (q k : Fin 512) : Read.idx_main_v18 (Read.ridx_main_v19 (ix2 p q) k) = ix2 q k :=
  funext fun a => Fin.ext (by match a with | ⟨0, _⟩ => rfl | ⟨1, _⟩ => rfl)

/-- The spread bias reads the bias at column `q`. -/
theorem idx_bias (p : Fin 4096) (q : Fin 512) : Read.idx_main_v20 (Read.idx_main_v21 (ix2 p q)) = ix1 q :=
  funext fun a => Fin.ext (by match a with | ⟨0, _⟩ => rfl)

/-- The reference's last stage at row `p`, column `q` is `outR` there. -/
theorem ref_apply (x0 : (⟨S4096x512, .f32⟩ : BufTy).Contents (Elt Ideal)) (x1 : (⟨S4096x4096, .f32⟩ : BufTy).Contents (Elt Ideal))
    (x2 : (⟨S512x512, .f32⟩ : BufTy).Contents (Elt Ideal)) (x3 : (⟨S512, .f32⟩ : BufTy).Contents (Elt Ideal))
    (p : Fin 4096) (q : Fin 512) :
    Read.val_main_v22 (F := Ideal) x0 x1 x2 x3 (ix2 p q) = Cert.Spec.outR x0 x1 x2 x3 p q := by
  rw [Read.val_main_v22_apply, Read.val_main_v19_apply, Read.val_main_v21_apply, Read.val_main_v20_apply, idx_bias]
  simp only [Read.val_main_v18_apply, lidx19, ridx19, h_apply]
  rfl

end Cert.RefValue

end
-- ==== Proof.PreDecode.lean ====
/-
  What the precondition says of the argument arrays: every entry of each is a real number, and every row sum of
  `adj + I` — the radicand under the reference's root — is positive.

  The predicate is a conjunction of five universal statements. Four say, of one array each, that the absolute value
  of every entry is below +∞: an extended real with that property is neither infinity. The fifth says that every row
  sum of the adjacency plus the identity is above zero; the identity's entry at (i, j) is the comparison of the two
  coordinates read as a number, which is the Kronecker delta, so that row sum is the reference's radicand.
-/
import proofs.«127069_j5488968204378_1_alg».proof.Pre_finite_inputs
import proofs.«127069_j5488968204378_1_alg».proof.Proof.Gen.Pre_finite_inputs
import proofs.«127069_j5488968204378_1_alg».proof.Proof.Spec
import proofs.«127069_j5488968204378_1_alg».proof.Proof.LibColumnLayout
import Idealize.ShloMosaic.Lib.ReduceAll
import Idealize.ShloMosaic.Lib.IdealHost
import Idealize.ShloMosaic.Lib.StableHlo.Predicate
import Idealize.ShloMosaic.PureOps.Ideal.Laws

noncomputable section

namespace Cert.PreDecode

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-! ## One element of a finiteness test -/

/-- The pattern the tests compare against is +∞. -/
theorem inf_bits : Ideal.ofBits .f32 0x7F800000#32 = ⊤ := by simp [Ideal.ofBits, Ideal.ieee]

/-- An extended real whose absolute value is below +∞ is a real number: |⊥| = |⊤| = ⊤, which is not below itself. -/
theorem real_of_abs_lt (x : EReal) (h : Ideal.cmp .olt (max x (-x)) (Ideal.ofBits .f32 0x7F800000#32) = 1#1) :
    x ≠ ⊥ ∧ x ≠ ⊤ := by
  rw [inf_bits] at h
  simp only [Ideal.cmp, StableHlo.Predicate.ofBool_eq_one_iff, decide_eq_true_eq] at h
  constructor
  · rintro rfl; simp at h
  · rintro rfl; simp at h

/-- A sum that compares above the pattern of zero is positive. -/
theorem pos_of_cmp (s : EReal) (h : Ideal.cmp .ogt s (Ideal.ofBits .f32 0x00000000#32) = 1#1) : 0 < s := by
  rw [Ideal.ofBits_zero_f32] at h
  simpa only [Ideal.cmp, StableHlo.Predicate.ofBool_eq_one_iff, decide_eq_true_eq] using h

/-! ## The identity's entry -/

/-- Row and column numbers below 4096 are equal as 32-bit words only when they are equal. -/
theorem word_inj (i j : Fin 4096) (e : BitVec.ofNat 32 i.val = BitVec.ofNat 32 j.val) : i = j := by
  have h := congrArg BitVec.toNat e
  simp only [BitVec.toNat_ofNat] at h
  apply Fin.ext
  have := i.isLt
  have := j.isLt
  omega

/-- The comparison of the row number (plus zero) with the column number, read as a number, is the Kronecker delta. -/
theorem eye_word (i j : Fin 4096) :
    (((IntOp.cmpi .eq (IntOp.addi (BitVec.ofNat 32 i.val) 0#32) (BitVec.ofNat 32 j.val)).toNat : ℝ) : EReal)
      = Cert.Spec.eye i j := by
  have hadd : IntOp.addi (BitVec.ofNat 32 i.val) 0#32 = BitVec.ofNat 32 i.val := by
    show BitVec.ofNat 32 i.val + 0#32 = _
    exact BitVec.add_zero _
  rw [hadd]
  unfold Cert.Spec.eye
  by_cases hij : i = j
  · subst hij
    rw [if_pos rfl, StableHlo.Predicate.cmpi_eq_iff.2 rfl]
    simp
  · have h0 : IntOp.cmpi .eq (BitVec.ofNat 32 i.val) (BitVec.ofNat 32 j.val) = 0#1 := by
      rcases BitVec.eq_zero_or_eq_one (IntOp.cmpi .eq (BitVec.ofNat 32 i.val) (BitVec.ofNat 32 j.val)) with h | h
      · exact h
      · exact absurd (word_inj i j (StableHlo.Predicate.cmpi_eq_iff.1 h)) hij
    rw [if_neg hij, h0]
    simp

/-- The summand of the fifth test at (i, j): the adjacency's entry plus the identity's. -/
theorem entry (x1 : FVec Ideal S4096x4096 .f32) (hb : S_.BroadcastsInDim S4096x4096 (![] : Fin 0 → Fin S4096x4096.rank))
    (i j : Fin 4096) :
    addf x1 (uitofp .f32 (cmpi .eq (addi (iotaInDim S4096x4096 32 0)
        (broadcastInDim S4096x4096 ![] hb (constantI S_ 32 0#32))) (iotaInDim S4096x4096 32 1))) (ix2 i j)
      = x1 (ix2 i j) + Cert.Spec.eye i j := by
  rw [← eye_word i j]
  rfl

/-- The row sum the fifth test compares is the reference's radicand. -/
theorem rowsum (x1 : FVec Ideal S4096x4096 .f32) (hb : S_.BroadcastsInDim S4096x4096 (![] : Fin 0 → Fin S4096x4096.rank))
    (hr : S4096x4096.ReducesTo [1] S4096) (hu : 0 < S_.numel) (i : Fin 4096) :
    Host.reduceAdd (addf x1 (uitofp .f32 (cmpi .eq (addi (iotaInDim S4096x4096 32 0)
        (broadcastInDim S4096x4096 ![] hb (constantI S_ 32 0#32))) (iotaInDim S4096x4096 32 1))))
        (constant S_ .f32 0x00000000#32) hr hu (ix1 i)
      = Cert.Spec.radR x1 i := by
  have hR : S4096x4096.Reduces [1] S4096 := by decide
  rw [hostReduceAdd_apply, Ideal.hostReduceAdd_single hr hR]
  show Ideal.ofBits .f32 0x00000000#32 + ∑ k : Fin 4096, _ = _
  rw [Ideal.ofBits_zero_f32, zero_add]
  unfold Cert.Spec.radR
  refine Finset.sum_congr rfl fun j _ => ?_
  rw [lift_row hR i j]
  exact entry x1 hb i j

/-! ## The predicate decoded -/

/-- From the printed predicate all ones: finiteness of the four arrays and positivity of every radicand. -/
theorem decode (x0 : FVec Ideal S4096x512 .f32) (x1 : FVec Ideal S4096x4096 .f32) (x2 : FVec Ideal S512x512 .f32) (x3 : FVec Ideal S512 .f32)
    (h : Cert.Pre_finite_inputs.fn (F := Ideal) x0 x1 x2 x3 = fun _ => 1#1) :
    Cert.Spec.Finite x0 ∧ Cert.Spec.Finite x1 ∧ Cert.Spec.Finite x2 ∧ Cert.Spec.Finite x3 ∧ ∀ i : Fin 4096, 0 < Cert.Spec.radR x1 i := by
  have e := congrFun h ix0
  unfold Cert.Pre_finite_inputs.fn Cert.Pre_finite_inputs.fn_part1 at e
  simp only [andi, IntOp.andi_eq_one] at e
  obtain ⟨⟨⟨⟨h0, h1⟩, h2⟩, h3⟩, h4⟩ := e
  refine ⟨fun a => ?_, fun a => ?_, fun a => ?_, fun a => ?_, fun i => ?_⟩
  · exact real_of_abs_lt _ (Host.reduce_andi_all _ _ _ _ _ h0 a)
  · exact real_of_abs_lt _ (Host.reduce_andi_all _ _ _ _ _ h1 a)
  · exact real_of_abs_lt _ (Host.reduce_andi_all _ _ _ _ _ h2 a)
  · exact real_of_abs_lt _ (Host.reduce_andi_all _ _ _ _ _ h3 a)
  · have hi := Host.reduce_andi_all _ _ _ _ _ h4 (ix1 i)
    rw [← rowsum x1 Facts.bcast_S_S4096x4096 Facts.reducesTo_S4096x4096_S4096_d1 Facts.h_S_ i]
    exact pos_of_cmp _ hi

end Cert.PreDecode

end
-- ==== Proof.lean ====
/-
  The certificate of a graph-convolution kernel against its reference, over the extended reals.

  The kernel computes the degree d i = 1 / √(Σ_j adj[i,j] + 1) in a first region, then in a second region, row block by
  row block and column block by column block, accumulates Σ_j adj[i,j] · (x[j,f] · d j), forms the hidden rows
  h[i,f] = d i · acc[i,f] + (d i · d i) · x[i,f] and stores Σ_f h[i,f] · W[o,f] + b[o]. The reference adds the identity
  to the adjacency, takes d i = 1 / √(Σ_j (adj + I)[i,j]), normalises entry by entry and multiplies through.

  The claim holds under the precondition that every input entry is a real number and every row sum of adj + I, the
  radicand under the reference's root, is positive: then every degree is a positive real, a row of the identity sums
  to one, the diagonal term of the reference's row is d i · d i · x[i,f], and d i factors out of the rest. At a row sum
  of exactly zero the degree is +∞ and the two groupings give different results, which is why positivity is needed.

  The frames: each program runs to its end from any memory with zero counters, nothing faulting, its four argument
  arrays unchanged (for the two kernel programs, from the run of @main as two kernel regions around two host
  operations; for the reference, from its run as a list of host operations). The kernel's idealization rewrote nothing.
  The algebraic claim: the idealized kernel's result array is the kernel's formula of the launch contents, the
  reference's last stage is the reference's formula, and the two formulas agree under the precondition.
-/
import proofs.«127069_j5488968204378_1_alg».proof.Defs
import proofs.«127069_j5488968204378_1_alg».proof.Proof.Gen.Kernel
import proofs.«127069_j5488968204378_1_alg».proof.Proof.Gen.KernelIdeal
import proofs.«127069_j5488968204378_1_alg».proof.Proof.Gen.ReferenceIdeal
import proofs.«127069_j5488968204378_1_alg».proof.Proof.Gen.Pre_finite_inputs
import proofs.«127069_j5488968204378_1_alg».proof.Proof.Gen.ReferenceIdeal.Run
import proofs.«127069_j5488968204378_1_alg».proof.Proof.Gen.ReferenceIdeal.Read
import proofs.«127069_j5488968204378_1_alg».proof.Proof.K_Segments
import proofs.«127069_j5488968204378_1_alg».proof.Proof.KI_Segments
import proofs.«127069_j5488968204378_1_alg».proof.Proof.KI_Result
import proofs.«127069_j5488968204378_1_alg».proof.Proof.KI_R0Value
import proofs.«127069_j5488968204378_1_alg».proof.Proof.KI_R1Value
import proofs.«127069_j5488968204378_1_alg».proof.Proof.RefValue
import proofs.«127069_j5488968204378_1_alg».proof.Proof.PreDecode
import proofs.«127069_j5488968204378_1_alg».proof.Proof.SpecArr
import Idealize.ShloMosaic.Adequacy
import Idealize.ShloMosaic.Init

noncomputable section

namespace Cert.Proof

open Idealize.ShloMosaic Idealize.ShloMosaic.TcCoe Idealize.SL.Sem

/-- The word-level kernel program runs to its end with its arguments unchanged. -/
theorem frame_k : Cert.frame_Kernel := fun m ρ _ => Cert.Kernel.Gen.frame_hand (F := Bits) m ρ

/-- So does the idealized kernel program. -/
theorem frame_ki : Cert.frame_KernelIdeal := fun m ρ _ => Cert.KernelIdeal.Gen.frame_hand (F := Ideal) m ρ

/-- The reference: its run as host operations, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: the kernel's formula of the arguments, which under the
    precondition is the reference's. -/
theorem algebraic : Cert.algebraic_KernelIdeal_ReferenceIdeal := by
  intro m ρ m' ρ' hpre hagree
  refine ⟨fun c => Cert.Spec.arrOf (Cert.Spec.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))),
    Cert.KernelIdeal.Val.kernel_value_of m ρ Cert.KernelIdeal.Val.deg_array Cert.KernelIdeal.Val.result_array, ?_⟩
  refine (θ_run Cert.ReferenceIdeal.defs _ _).mono (fun _ h c => ⟨(h c).1.trans ?_, (h c).2⟩)
    (Cert.ReferenceIdeal.Value.run (F := Ideal) m' ρ')
  obtain ⟨hx, ha, hW, hb, hpos⟩ := Cert.PreDecode.decode _ _ _ _ (hpre c)
  refine (Cert.ReferenceIdeal.Read.val_main_v22_eq _ _ _ _).trans ?_
  rw [(hagree c).1, (hagree c).2.1, (hagree c).2.2.1, (hagree c).2.2.2]
  refine Cert.Spec.ext_ix2 fun p q => ?_
  rw [Cert.RefValue.ref_apply]
  exact (Cert.Spec.outK_eq_outR _ _ _ _ hx ha hW hb hpos p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
